-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x1024 : Shape := ⟨3, ![8, 128, 1024]⟩
abbrev S8x128x1025 : Shape := ⟨3, ![8, 128, 1025]⟩
abbrev S8x1024x100 : Shape := ⟨3, ![8, 1024, 100]⟩
abbrev S_ : Shape := ⟨0, ![]⟩

class Facts : Prop where
  bcast_S_S8x128x1024 : S_.BroadcastsInDim S8x128x1024 (![] : Fin 0 → Fin S8x128x1024.rank)
  reducesTo_S8x128x1024_S_d0_1_2 : S8x128x1024.ReducesTo [0, 1, 2] S_
  h_S_ : 0 < S_.numel
  bcast_S_S8x128x1025 : S_.BroadcastsInDim S8x128x1025 (![] : Fin 0 → Fin S8x128x1025.rank)
  reducesTo_S8x128x1025_S_d0_1_2 : S8x128x1025.ReducesTo [0, 1, 2] S_
  bcast_S_S8x1024x100 : S_.BroadcastsInDim S8x1024x100 (![] : Fin 0 → Fin S8x1024x100.rank)
  reducesTo_S8x1024x100_S_d0_1_2 : S8x1024x100.ReducesTo [0, 1, 2] S_

variable [Facts]

def fn {F : FTy → Type} [FloatOps F] (main_arg0 : FVec F S8x128x1024 .f32) (main_arg1 : FVec F S8x128x1025 .f32) (main_arg2 : IVec S8x1024x100 32) : IVec S_ 1 :=
  let main_v0 : FVec F S8x128x1024 .f32 := Host.absf main_arg0
  let main_cst : FVec F S_ .f32 := constant S_ .f32 0x7F800000#32
  let main_v1 : FVec F S8x128x1024 .f32 := broadcastInDim S8x128x1024 ![] bcast_S_S8x128x1024 main_cst
  let main_v2 : IVec S8x128x1024 1 := cmpf .olt main_v0 main_v1
  let main_c : IVec S_ 1 := constantI S_ 1 1#1
  let main_v3 : IVec S_ 1 := (fun x v => Host.reduce IntOp.andi x v reducesTo_S8x128x1024_S_d0_1_2 h_S_) main_v2 main_c
  let main_v4 : FVec F S8x128x1025 .f32 := Host.absf main_arg1
  let main_cst_0 : FVec F S_ .f32 := constant S_ .f32 0x7F800000#32
  let main_v5 : FVec F S8x128x1025 .f32 := broadcastInDim S8x128x1025 ![] bcast_S_S8x128x1025 main_cst_0
  let main_v6 : IVec S8x128x1025 1 := cmpf .olt main_v4 main_v5
  let main_c_1 : IVec S_ 1 := constantI S_ 1 1#1
  let main_v7 : IVec S_ 1 := (fun x v => Host.reduce IntOp.andi x v reducesTo_S8x128x1025_S_d0_1_2 h_S_) main_v6 main_c_1
  let main_v8 : IVec S_ 1 := andi main_v3 main_v7
  let main_c_2 : IVec S_ 32 := constantI S_ 32 0#32
  let main_v9 : IVec S8x1024x100 32 := broadcastInDim S8x1024x100 ![] bcast_S_S8x1024x100 main_c_2
  let main_v10 : IVec S8x1024x100 1 := cmpi .sge main_arg2 main_v9
  let main_c_3 : IVec S_ 32 := constantI S_ 32 1024#32
  let main_v11 : IVec S8x1024x100 32 := broadcastInDim S8x1024x100 ![] bcast_S_S8x1024x100 main_c_3
  let main_v12 : IVec S8x1024x100 1 := cmpi .slt main_arg2 main_v11
  let main_v13 : IVec S8x1024x100 1 := andi main_v10 main_v12
  let main_c_4 : IVec S_ 1 := constantI S_ 1 1#1
  let main_v14 : IVec S_ 1 := (fun x v => Host.reduce IntOp.andi x v reducesTo_S8x1024x100_S_d0_1_2 h_S_) main_v13 main_c_4
  let main_v15 : IVec S_ 1 := andi main_v8 main_v14
  main_v15
-- ==== Kernel.lean ====
abbrev S8x128x1024 : Shape := ⟨3, ![8, 128, 1024]⟩
abbrev S8x128x1025 : Shape := ⟨3, ![8, 128, 1025]⟩
abbrev S8x1024x100 : Shape := ⟨3, ![8, 1024, 100]⟩
abbrev S8x1024x128 : Shape := ⟨3, ![8, 1024, 128]⟩
abbrev S8192x101 : Shape := ⟨2, ![8192, 101]⟩
abbrev S1x1024x128 : Shape := ⟨3, ![1, 1024, 128]⟩
abbrev S1x32x128 : Shape := ⟨3, ![1, 32, 128]⟩
abbrev S1x32x100 : Shape := ⟨3, ![1, 32, 100]⟩
abbrev S32x101 : Shape := ⟨2, ![32, 101]⟩
abbrev S1024x128 : Shape := ⟨2, ![1024, 128]⟩
abbrev S32x100 : Shape := ⟨2, ![32, 100]⟩
abbrev S1x1x1024 : Shape := ⟨3, ![1, 1, 1024]⟩
abbrev S32x100x1 : Shape := ⟨3, ![32, 100, 1]⟩
abbrev S32x100x1024 : Shape := ⟨3, ![32, 100, 1024]⟩
abbrev S3200x1024 : Shape := ⟨2, ![3200, 1024]⟩
abbrev S3200x128 : Shape := ⟨2, ![3200, 128]⟩
abbrev S32x100x128 : Shape := ⟨3, ![32, 100, 128]⟩
abbrev S32x128 : Shape := ⟨2, ![32, 128]⟩
abbrev S32 : Shape := ⟨1, ![32]⟩
abbrev S32x1 : Shape := ⟨2, ![32, 1]⟩
abbrev S32x1x128 : Shape := ⟨3, ![32, 1, 128]⟩

abbrev nBuf : Space → Nat
  | .hbm => 8
  | .vmem => 10
  | .smem => 0
  | _ => 0

abbrev bufTy : (tb : Table) → Fin (tcTables nBuf tb) → BufTy
  | .hbm, ⟨0, _⟩ => ⟨S8x128x1024, .f32⟩
  | .hbm, ⟨1, _⟩ => ⟨S8x128x1025, .f32⟩
  | .hbm, ⟨2, _⟩ => ⟨S8x1024x100, .i32⟩
  | .hbm, ⟨3, _⟩ => ⟨S8x1024x128, .f32⟩
  | .hbm, ⟨4, _⟩ => ⟨S8x1024x128, .bf16⟩
  | .hbm, ⟨5, _⟩ => ⟨S8x128x1024, .f32⟩
  | .hbm, ⟨6, _⟩ => ⟨S8x1024x128, .f32⟩
  | .hbm, ⟨7, _⟩ => ⟨S8192x101, .f32⟩
  | .local _ .vmem, ⟨0, _⟩ => ⟨S1x1024x128, .bf16⟩
  | .local _ .vmem, ⟨1, _⟩ => ⟨S1x1024x128, .bf16⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x32x100, .i32⟩
  | .local _ .vmem, ⟨7, _⟩ => ⟨S1x32x100, .i32⟩
  | .local _ .vmem, ⟨8, _⟩ => ⟨S32x101, .f32⟩
  | .local _ .vmem, ⟨9, _⟩ => ⟨S32x101, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x100 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x101 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S8x128x1024_S8x1024x128_0_2_1 : S8x128x1024.Transposes [0, 2, 1] S8x1024x128
  bitsLt_bf16_f32 : FTy.bits .bf16 < FTy.bits .f32
  slices_S8x128x1025_S8x128x1024_0_0_1 : S8x128x1025.Slices ![0, 0, 1] S8x128x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x32x100_S1x32x100_0_0_0 : ∀ a, (![0, 0, 0] : Fin 3 → Nat) a + S1x32x100.size a ≤ S1x32x100.size a
  h_S1x32x100 : 0 < S1x32x100.numel
  shapeCasts_S1x32x100_S32x100 : S1x32x100.ShapeCasts S32x100
  iota_S1x1x1024_d2_w32 : S1x1x1024.Iotas .tc 32 [2]
  shapeCasts_S32x100_S32x100x1 : S32x100.ShapeCasts S32x100x1
  broadcasts_S32x100x1_S32x100x1024 : S32x100x1.Broadcasts S32x100x1024
  broadcasts_S1x1x1024_S32x100x1024 : S1x1x1024.Broadcasts S32x100x1024
  natLt_1_32 : 1 < 32
  shapeCasts_S32x100x1024_S3200x1024 : S32x100x1024.ShapeCasts S3200x1024
  shapeCasts_S3200x128_S32x100x128 : S3200x128.ShapeCasts S32x100x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  reduces_S32x128_S32 : S32x128.Reduces [1] S32
  shapeCasts_S32_S32x1 : S32.ShapeCasts S32x1
  shapeCasts_S32x128_S32x1x128 : S32x128.ShapeCasts S32x1x128
  broadcasts_S32x1x128_S32x100x128 : S32x1x128.Broadcasts S32x100x128
  reduces_S32x100x128_S32x100 : S32x100x128.Reduces [2] S32x100
  broadcasts_S32x1_S32x100 : S32x1.Broadcasts S32x100
  inb_S32x101_S32x1_0_0 : ∀ a, (![0, 0] : Fin 2 → Nat) a + S32x1.size a ≤ S32x101.size a
  h_S32x1 : 0 < S32x1.numel
  inb_S32x101_S32x100_0_1 : ∀ a, (![0, 1] : Fin 2 → Nat) a + S32x100.size a ≤ S32x101.size a
  h_S32x100 : 0 < S32x100.numel
  dot_S3200x1024_S1024x128_S3200x128_1_0_0_1_n_n_wf : DotDims.WF S3200x1024 S1024x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x1024x128.size a
  hwx0_0 : ∀ i : grid0.Coords, EltTy.bits .bf16 = 32 ∨ (Rect.block (s := S8x1024x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128.size a ≤ S8x1024x128.size a
  hwx0_1 : ∀ i : grid0.Coords, EltTy.bits .f32 = 32 ∨ (Rect.block (s := S8x1024x128) S1x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S8x1024x128.size a
  hwx0_2 : ∀ i : grid0.Coords, EltTy.bits .f32 = 32 ∨ (Rect.block (s := S8x1024x128) S1x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x100.size a ≤ S8x1024x100.size a
  hwx0_3 : ∀ i : grid0.Coords, EltTy.bits .i32 = 32 ∨ (Rect.block (s := S8x1024x100) S1x32x100.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x101.size a ≤ S8192x101.size a
  hwx0_4 : ∀ i : grid0.Coords, EltTy.bits .f32 = 32 ∨ (Rect.block (s := S8192x101) S32x101.size (cc0_transform_4 i) (hinb0_4 i)).WholeWords (EltTy.packing .f32)

variable [Facts₀]

def dot_S3200x1024_S1024x128_S3200x128_1_0_0_1_n_n : DotDims S3200x1024 S1024x128 S3200x128 where
  lhsContracting := [1]
  rhsContracting := [0]
  lhsNonContracting := [0]
  rhsNonContracting := [1]
  lhsBatch := []
  rhsBatch := []
  wf := dot_S3200x1024_S1024x128_S3200x128_1_0_0_1_n_n_wf

abbrev win0_0 : Pipeline.Window sig grid0 :=
  Pipeline.Window.ofSpec (Memref.whole main_v1) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x32x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x101.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x1024 : Shape := ⟨3, ![8, 128, 1024]⟩
abbrev S8x128x1025 : Shape := ⟨3, ![8, 128, 1025]⟩
abbrev S8x1024x100 : Shape := ⟨3, ![8, 1024, 100]⟩
abbrev S8x1024x128 : Shape := ⟨3, ![8, 1024, 128]⟩
abbrev S8 : Shape := ⟨1, ![8]⟩
abbrev S8x1x1 : Shape := ⟨3, ![8, 1, 1]⟩
abbrev S_ : Shape := ⟨0, ![]⟩
abbrev S8x1024x100x1 : Shape := ⟨4, ![8, 1024, 100, 1]⟩
abbrev S8x1024x100x2 : Shape := ⟨4, ![8, 1024, 100, 2]⟩
abbrev S8x1024x100x128 : Shape := ⟨4, ![8, 1024, 100, 128]⟩
abbrev S8x1024x1x128 : Shape := ⟨4, ![8, 1024, 1, 128]⟩
abbrev S8x1024x101x128 : Shape := ⟨4, ![8, 1024, 101, 128]⟩
abbrev S8x1024x101 : Shape := ⟨3, ![8, 1024, 101]⟩
abbrev S8x1024x1 : Shape := ⟨3, ![8, 1024, 1]⟩
abbrev S8192x101 : Shape := ⟨2, ![8192, 101]⟩

abbrev nBuf : Space → Nat
  | .hbm => 66
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1025, .f32⟩
  | .hbm, ⟨2, _⟩ => ⟨S8x1024x100, .i32⟩
  | .hbm, ⟨3, _⟩ => ⟨S8x1024x128, .f32⟩
  | .hbm, ⟨4, _⟩ => ⟨S8, .i32⟩
  | .hbm, ⟨5, _⟩ => ⟨S8x1x1, .i32⟩
  | .hbm, ⟨6, _⟩ => ⟨S_, .i32⟩
  | .hbm, ⟨7, _⟩ => ⟨S8x1x1, .i32⟩
  | .hbm, ⟨8, _⟩ => ⟨S8x1x1, .i1⟩
  | .hbm, ⟨9, _⟩ => ⟨S_, .i32⟩
  | .hbm, ⟨10, _⟩ => ⟨S8x1x1, .i32⟩
  | .hbm, ⟨11, _⟩ => ⟨S8x1x1, .i32⟩
  | .hbm, ⟨12, _⟩ => ⟨S8x1x1, .i32⟩
  | .hbm, ⟨13, _⟩ => ⟨S_, .i32⟩
  | .hbm, ⟨14, _⟩ => ⟨S8x1024x100, .i32⟩
  | .hbm, ⟨15, _⟩ => ⟨S8x1024x100, .i1⟩
  | .hbm, ⟨16, _⟩ => ⟨S_, .i32⟩
  | .hbm, ⟨17, _⟩ => ⟨S8x1024x100, .i32⟩
  | .hbm, ⟨18, _⟩ => ⟨S8x1024x100, .i32⟩
  | .hbm, ⟨19, _⟩ => ⟨S8x1024x100, .i32⟩
  | .hbm, ⟨20, _⟩ => ⟨S8x1024x100, .i32⟩
  | .hbm, ⟨21, _⟩ => ⟨S8x1024x100x1, .i32⟩
  | .hbm, ⟨22, _⟩ => ⟨S8x1024x100x1, .i32⟩
  | .hbm, ⟨23, _⟩ => ⟨S8x1024x100x2, .i32⟩
  | .hbm, ⟨24, _⟩ => ⟨S8x1024x100x128, .f32⟩
  | .hbm, ⟨25, _⟩ => ⟨S8x128x1024, .f32⟩
  | .hbm, ⟨26, _⟩ => ⟨S8x1024x128, .f32⟩
  | .hbm, ⟨27, _⟩ => ⟨S8x1024x1x128, .f32⟩
  | .hbm, ⟨28, _⟩ => ⟨S8x1024x1x128, .f32⟩
  | .hbm, ⟨29, _⟩ => ⟨S8x1024x101x128, .f32⟩
  | .hbm, ⟨30, _⟩ => ⟨S8x1024x101x128, .f32⟩
  | .hbm, ⟨31, _⟩ => ⟨S8x1024x101x128, .f32⟩
  | .hbm, ⟨32, _⟩ => ⟨S_, .f32⟩
  | .hbm, ⟨33, _⟩ => ⟨S8x1024x101, .f32⟩
  | .hbm, ⟨34, _⟩ => ⟨S8x1024x1x128, .f32⟩
  | .hbm, ⟨35, _⟩ => ⟨S_, .f32⟩
  | .hbm, ⟨36, _⟩ => ⟨S8x1024x1, .f32⟩
  | .hbm, ⟨37, _⟩ => ⟨S8x1024x1, .f32⟩
  | .hbm, ⟨38, _⟩ => ⟨S_, .f32⟩
  | .hbm, ⟨39, _⟩ => ⟨S8x1024x1, .f32⟩
  | .hbm, ⟨40, _⟩ => ⟨S8x1024x1, .f32⟩
  | .hbm, ⟨41, _⟩ => ⟨S8x1024x101x128, .f32⟩
  | .hbm, ⟨42, _⟩ => ⟨S_, .f32⟩
  | .hbm, ⟨43, _⟩ => ⟨S8x1024x101, .f32⟩
  | .hbm, ⟨44, _⟩ => ⟨S8x1024x101, .f32⟩
  | .hbm, ⟨45, _⟩ => ⟨S_, .f32⟩
  | .hbm, ⟨46, _⟩ => ⟨S8x1024x101, .f32⟩
  | .hbm, ⟨47, _⟩ => ⟨S8x1024x101, .f32⟩
  | .hbm, ⟨48, _⟩ => ⟨S8x1024x101, .f32⟩
  | .hbm, ⟨49, _⟩ => ⟨S8x1024x101, .f32⟩
  | .hbm, ⟨50, _⟩ => ⟨S8x1024x101, .f32⟩
  | .hbm, ⟨51, _⟩ => ⟨S_, .f32⟩
  | .hbm, ⟨52, _⟩ => ⟨S8x1024x101, .f32⟩
  | .hbm, ⟨53, _⟩ => ⟨S8x1024x101, .f32⟩
  | .hbm, ⟨54, _⟩ => ⟨S8x1024x100x128, .f32⟩
  | .hbm, ⟨55, _⟩ => ⟨S8x1024x100x128, .i1⟩
  | .hbm, ⟨56, _⟩ => ⟨S_, .i1⟩
  | .hbm, ⟨57, _⟩ => ⟨S8x1024x100, .i1⟩
  | .hbm, ⟨58, _⟩ => ⟨S8x1024x100, .f32⟩
  | .hbm, ⟨59, _⟩ => ⟨S_, .f32⟩
  | .hbm, ⟨60, _⟩ => ⟨S_, .f32⟩
  | .hbm, ⟨61, _⟩ => ⟨S8x1024x100, .f32⟩
  | .hbm, ⟨62, _⟩ => ⟨S8x1024x100, .f32⟩
  | .hbm, ⟨63, _⟩ => ⟨S8x1024x1, .f32⟩
  | .hbm, ⟨64, _⟩ => ⟨S8x1024x101, .f32⟩
  | .hbm, ⟨65, _⟩ => ⟨S8192x101, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_call0_v0 : Ref sig .tc := ⟨.hbm, 60, rfl⟩
abbrev main_call0_v1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  transposes_S8x128x1024_S8x1024x128_0_2_1 : S8x128x1024.Transposes [0, 2, 1] S8x1024x128
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S8x1024x100 : S_.BroadcastsInDim S8x1024x100 (![] : Fin 0 → Fin S8x1024x100.rank)
  bcast_S8x1x1_S8x1024x100_0_1_2 : S8x1x1.BroadcastsInDim S8x1024x100 (![0, 1, 2] : Fin 3 → Fin S8x1024x100.rank)
  bcast_S8x1024x100_S8x1024x100x1_0_1_2 : S8x1024x100.BroadcastsInDim S8x1024x100x1 (![0, 1, 2] : Fin 3 → Fin S8x1024x100x1.rank)
  concatenates_S8x1024x100x1_S8x1024x100x1_S8x1024x100x2_d3 : Shape.Concatenates [S8x1024x100x1, S8x1024x100x1] S8x1024x100x2 3
  slices_S8x128x1025_S8x128x1024_0_0_1 : S8x128x1025.Slices ![0, 0, 1] S8x128x1024
  bcast_S8x1024x128_S8x1024x1x128_0_1_3 : S8x1024x128.BroadcastsInDim S8x1024x1x128 (![0, 1, 3] : Fin 3 → Fin S8x1024x1x128.rank)
  concatenates_S8x1024x1x128_S8x1024x100x128_S8x1024x101x128_d2 : Shape.Concatenates [S8x1024x1x128, S8x1024x100x128] S8x1024x101x128 2
  bcast_S8x1024x1x128_S8x1024x101x128_0_1_2_3 : S8x1024x1x128.BroadcastsInDim S8x1024x101x128 (![0, 1, 2, 3] : Fin 4 → Fin S8x1024x101x128.rank)
  reducesTo_S8x1024x101x128_S8x1024x101_d3 : S8x1024x101x128.ReducesTo [3] S8x1024x101
  h_S_ : 0 < S_.numel
  reducesTo_S8x1024x1x128_S8x1024x1_d3 : S8x1024x1x128.ReducesTo [3] S8x1024x1
  bcast_S_S8x1024x1 : S_.BroadcastsInDim S8x1024x1 (![] : Fin 0 → Fin S8x1024x1.rank)
  bcast_S_S8x1024x101 : S_.BroadcastsInDim S8x1024x101 (![] : Fin 0 → Fin S8x1024x101.rank)
  bcast_S8x1024x1_S8x1024x101_0_1_2 : S8x1024x1.BroadcastsInDim S8x1024x101 (![0, 1, 2] : Fin 3 → Fin S8x1024x101.rank)
  bcast_S8x1024x1x128_S8x1024x100x128_0_1_2_3 : S8x1024x1x128.BroadcastsInDim S8x1024x100x128 (![0, 1, 2, 3] : Fin 4 → Fin S8x1024x100x128.rank)
  reducesTo_S8x1024x100x128_S8x1024x100_d3 : S8x1024x100x128.ReducesTo [3] S8x1024x100
  slices_S8x1024x101_S8x1024x100_0_0_1 : S8x1024x101.Slices ![0, 0, 1] S8x1024x100
  slices_S8x1024x101_S8x1024x1_0_0_0 : S8x1024x101.Slices ![0, 0, 0] S8x1024x1
  concatenates_S8x1024x1_S8x1024x100_S8x1024x101_d2 : Shape.Concatenates [S8x1024x1, S8x1024x100] S8x1024x101 2
  shapeCasts_S8x1024x101_S8192x101 : S8x1024x101.ShapeCasts S8192x101
  gather_S8x1024x128_S8x1024x100x2_S8x1024x100x128_3_01_n_n_01_3_11128_wf : GatherDims.WF S8x1024x128 S8x1024x100x2 S8x1024x100x128 [3] [0, 1] [] [0, 1] [] 3 ![1, 1, 128]

variable [Facts₀]

def gather_S8x1024x128_S8x1024x100x2_S8x1024x100x128_3_01_n_n_01_3_11128 : GatherDims S8x1024x128 S8x1024x100x2 S8x1024x100x128 where
  offsetDims := [3]
  collapsedSliceDims := [0, 1]
  operandBatchingDims := []
  startIndicesBatchingDims := []
  startIndexMap := [0, 1]
  indexVectorDim := 3
  sliceSizes := ![1, 1, 128]
  wf := gather_S8x1024x128_S8x1024x100x2_S8x1024x100x128_3_01_n_n_01_3_11128_wf

class Facts : Prop extends Facts₀ where

variable [Facts]
-- ==== Proof.Spec.lean ====
/-
  The contrastive logits as ONE function of the three argument arrays, over the extended reals.

  z is [8, 128, 1024] (batch, channel, position), c is [8, 128, 1025] (batch, channel, position with a start token in
  front), idx is [8, 1024, 100] (batch, position, negative sample), every idx word a position in [0, 1024).
  For batch n and position l the CONTEXT vector is c[n, ·, l + 1] and the TARGET vectors are z[n, ·, l] (column 0 of
  the result) and z[n, ·, idx[n, l, k]] (column k + 1). Entry (1024 n + l, q) of the [8192, 101] result is the cosine
  logit of the context with target q,

      ((Σ a·b) / (max (√Σ a·a) ε · max (√Σ b·b) ε)) / ½,

  except that a NEGATIVE sample (q ≥ 1) whose target equals the context in every channel is −∞.
-/
import Idealize.ShloMosaic.PureOps.Ideal
import Idealize.ShloMosaic.Lib.ValueIdx

noncomputable section

open scoped BigOperators Classical

namespace Cert.Spec

open Idealize.ShloMosaic Idealize.ShloMosaic.ValueIdx

abbrev Sz : Shape := ⟨3, ![8, 128, 1024]⟩
abbrev Sc : Shape := ⟨3, ![8, 128, 1025]⟩
abbrev Si : Shape := ⟨3, ![8, 1024, 100]⟩
abbrev So : Shape := ⟨2, ![8192, 101]⟩

/-- The norm clamp ε (the f32 nearest 1e-8) and the temperature ½, as the extended reals their words denote. -/
def eps : EReal := Ideal.ofBits .f32 0x322BCC77#32
def half : EReal := Ideal.ofBits .f32 0x3F000000#32

/-- The cosine logit of a context vector a and a target vector b over the 128 channels. -/
def logit (a b : Fin 128 → EReal) : EReal :=
  Ideal.div (Ideal.div (∑ k, a k * b k) (max (Ideal.sqrt (∑ k, a k * a k)) eps * max (Ideal.sqrt (∑ k, b k * b k)) eps)) half

/-- A negative sample's logit: −∞ when the target is the context itself, channel by channel. -/
def maskedLogit (a b : Fin 128 → EReal) : EReal :=
  if ∀ k, a k = b k then ⊥ else logit a b

/-- The position an index word names (a word in [0, 1024) names itself). -/
def rowOf (w : BitVec 32) : Fin 1024 := ⟨w.toNat % 1024, Nat.mod_lt _ (by decide)⟩

theorem rowOf_val {w : BitVec 32} (h : w.toNat < 1024) : (rowOf w).val = w.toNat := Nat.mod_eq_of_lt h

/-- The context vector of batch n at position l: c[n, ·, l + 1]. -/
def ctx (c : FVec Ideal Sc .f32) (n : Fin 8) (l : Fin 1024) : Fin 128 → EReal :=
  fun k => c (ix3 n k ⟨l.val + 1, by omega⟩)

/-- The z vector of batch n at position j: z[n, ·, j]. -/
def col (z : FVec Ideal Sz .f32) (n : Fin 8) (j : Fin 1024) : Fin 128 → EReal :=
  fun k => z (ix3 n k j)

/-- Entry (n, l, q) of the [8, 1024, 101] logits. -/
def entry (z : FVec Ideal Sz .f32) (c : FVec Ideal Sc .f32) (idx : IVec Si 32) (n : Fin 8) (l : Fin 1024) (q : Fin 101) : EReal :=
  if h : q.val = 0 then logit (ctx c n l) (col z n l)
  else maskedLogit (ctx c n l) (col z n (rowOf (idx (ix3 n l ⟨q.val - 1, by omega⟩))))

/-- The [8192, 101] result: row 1024 n + l holds the logits of batch n at position l. -/
def G (z : FVec Ideal Sz .f32) (c : FVec Ideal Sc .f32) (idx : IVec Si 32) : FVec Ideal So .f32 :=
  fun i => entry z c idx ⟨(i 0).val / 1024, by have := idx2_lt0 i; omega⟩ ⟨(i 0).val % 1024, Nat.mod_lt _ (by decide)⟩ (i 1)

theorem G_apply (z : FVec Ideal Sz .f32) (c : FVec Ideal Sc .f32) (idx : IVec Si 32) (n : Fin 8) (l : Fin 1024) (q : Fin 101) :
    G z c idx (ix2 ⟨1024 * n.val + l.val, by omega⟩ q) = entry z c idx n l q := by
  unfold G
  congr 1
  · exact Fin.ext (by show (1024 * n.val + l.val) / 1024 = n.val; omega)
  · exact Fin.ext (by show (1024 * n.val + l.val) % 1024 = l.val; omega)

end Cert.Spec

end
-- ==== Proof.KBlocks.lean ====
/-
  What the kernel region finds, and what each grid point's blocks hold, as entries of the argument arrays.

  Before the region the host transposes z to [8, 1024, 128] (position-major), rounds a copy of it to the table's
  format (the identity over the extended reals), and drops c's start token and transposes it likewise. Grid point
  t = 32 n + b (batch n, tile b of 32 positions) stages: the whole table of batch n; rows 32 b … 32 b + 31 of the
  transposed z, of the transposed c and of idx in batch n; and writes rows 32 t … 32 t + 31 of the result. So at
  row r of the point, position l = 32 b + r, the blocks hold z[n, k, l], c[n, k, l + 1], idx[n, l, j] and the table
  z[n, k, p].
-/
import proofs.«425351_j8435315769539_1_alg».proof.Proof.Gen.KernelIdeal.Value
import proofs.«425351_j8435315769539_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KBlocks

open Idealize.ShloMosaic Idealize.ShloMosaic.ValueIdx Idealize.ShloMosaic.TcCoe Idealize.SL.Sem Idealize.ShloMosaic.StableHlo
open Cert.KernelIdeal Cert.KernelIdeal.Gen Cert.Spec

variable (m : (ℓ : Loc nD τ sig) → Buf (Elt Ideal) ℓ)

/-- The three argument arrays of core c, at their literal types. -/
abbrev zarr (c : Dev nD) : FVec Ideal Sz .f32 := m ((c : Thread nD τ).loc main_arg0)
abbrev carr (c : Dev nD) : FVec Ideal Sc .f32 := m ((c : Thread nD τ).loc main_arg1)
abbrev iarr (c : Dev nD) : IVec Si 32 := m ((c : Thread nD τ).loc main_arg2)

/-! ## What the region finds -/

theorem V_v0 (c : Dev nD) : (V m c main_v0 : S8x1024x128.Idx → EReal)
    = transpose S8x1024x128 [0, 2, 1] (zarr m c) transposes_S8x128x1024_S8x1024x128_0_2_1 := by
  dsimp only [V, hostOps0]; after_results

theorem V_v1 (c : Dev nD) : (V m c main_v1 : S8x1024x128.Idx → EReal)
    = truncf (F := Ideal) .bf16 (transpose S8x1024x128 [0, 2, 1] (zarr m c) transposes_S8x128x1024_S8x1024x128_0_2_1) bitsLt_bf16_f32 := by
  dsimp only [V, hostOps0]; after_results

theorem V_v3 (c : Dev nD) : (V m c main_v3 : S8x1024x128.Idx → EReal)
    = transpose S8x1024x128 [0, 2, 1] (extractStridedSlice S8x128x1024 ![0, 0, 1] (carr m c) slices_S8x128x1025_S8x128x1024_0_0_1)
        transposes_S8x128x1024_S8x1024x128_0_2_1 := by
  dsimp only [V, hostOps0]; after_results

/-- The transposed z at (n, p, k) is z[n, k, p]. -/
theorem V_v0_apply (c : Dev nD) (n : Fin 8) (p : Fin 1024) (k : Fin 128) :
    V m c main_v0 (ix3 n p k) = zarr m c (ix3 n k p) :=
  (congrFun (V_v0 m c) (ix3 n p k)).trans
    (transpose_apply [0, 2, 1] _ _ (ix3 n p k) (ix3 n k p) (fun b => match b with
      | ⟨0, _⟩ => rfl
      | ⟨1, _⟩ => rfl
      | ⟨2, _⟩ => rfl))

/-- The table at (n, p, k) is z[n, k, p] as well: rounding to the table's format is the identity here. -/
theorem V_v1_apply (c : Dev nD) (n : Fin 8) (p : Fin 1024) (k : Fin 128) :
    V m c main_v1 (ix3 n p k) = zarr m c (ix3 n k p) :=
  (congrFun (V_v1 m c) (ix3 n p k)).trans
    (transpose_apply [0, 2, 1] _ _ (ix3 n p k) (ix3 n k p) (fun b => match b with
      | ⟨0, _⟩ => rfl
      | ⟨1, _⟩ => rfl
      | ⟨2, _⟩ => rfl))

/-- The transposed, token-dropped c at (n, p, k) is c[n, k, p + 1]. -/
theorem V_v3_apply (c : Dev nD) (n : Fin 8) (p : Fin 1024) (k : Fin 128) :
    V m c main_v3 (ix3 n p k) = carr m c (ix3 n k ⟨p.val + 1, by omega⟩) :=
  (congrFun (V_v3 m c) (ix3 n p k)).trans
    ((transpose_apply [0, 2, 1] _ _ (ix3 n p k) (ix3 n k p) (fun b => match b with
      | ⟨0, _⟩ => rfl
      | ⟨1, _⟩ => rfl
      | ⟨2, _⟩ => rfl)).trans
    (extractStridedSlice_apply ![0, 0, 1] (carr m c) slices_S8x128x1025_S8x128x1024_0_0_1 (ix3 n k p) (ix3 n k ⟨p.val + 1, by omega⟩)
      (fun a => match a with
        | ⟨0, _⟩ => by show n.val = 0 + n.val; omega
        | ⟨1, _⟩ => by show k.val = 0 + k.val; omega
        | ⟨2, _⟩ => by show p.val + 1 = 1 + p.val; omega)))

/-! ## The grid -/

/-- The printed index maps decided over the 256 points: point t is batch t / 32, tile t % 32. -/
theorem idx_facts : ∀ t : Fin cfg0.N,
    win0_0.index t (0 : Fin 3) = t.val / 32 ∧ win0_0.index t (1 : Fin 3) = 0 ∧ win0_0.index t (2 : Fin 3) = 0
    ∧ win0_1.index t (0 : Fin 3) = t.val / 32 ∧ win0_1.index t (1 : Fin 3) = t.val % 32 ∧ win0_1.index t (2 : Fin 3) = 0
    ∧ win0_2.index t (0 : Fin 3) = t.val / 32 ∧ win0_2.index t (1 : Fin 3) = t.val % 32 ∧ win0_2.index t (2 : Fin 3) = 0
    ∧ win0_3.index t (0 : Fin 3) = t.val / 32 ∧ win0_3.index t (1 : Fin 3) = t.val % 32 ∧ win0_3.index t (2 : Fin 3) = 0
    ∧ win0_4.index t (0 : Fin 2) = t.val ∧ win0_4.index t (1 : Fin 2) = 0 :=
  (by decide +kernel : ∀ t : Fin grid0.N, _)

theorem pt_lt (t : Fin cfg0.N) : t.val < 256 := lt_of_lt_of_eq t.isLt N_0

/-- The batch and the position a point's row r stands for. -/
def batchOf (t : Fin cfg0.N) : Fin 8 := ⟨t.val / 32, by have := pt_lt t; omega⟩
def posOf (t : Fin cfg0.N) (r : Fin 32) : Fin 1024 := ⟨32 * (t.val % 32) + r.val, by have := pt_lt t; omega⟩

/-! ## The blocks -/

/-- The table block of point t at (0, p, k): z[n, k, p]. -/
theorem tbl_apply (c : Dev nD) (t : Fin cfg0.N) (p : Fin 1024) (k : Fin 128) :
    (iblk m c 0 t : Vec Ideal S1x1024x128 .bf16) (ix3 (0 : Fin 1) p k) = zarr m c (ix3 (batchOf t) k p) := by
  obtain ⟨e0, e1, e2, -⟩ := idx_facts t
  show V m c main_v1 (((cfg0.win 0).blk t).view.emb (ix3 (0 : Fin 1) p k)) = _
  have he : ((cfg0.win 0).blk t).view.emb (ix3 (0 : Fin 1) p k) = ix3 (batchOf t) p k := by
    funext a; refine Fin.ext ?_
    match a with
    | ⟨0, _⟩ => show win0_0.index t (0 : Fin 3) * 1 + 1 * 0 = t.val / 32; omega
    | ⟨1, _⟩ => show win0_0.index t (1 : Fin 3) * 1024 + 1 * p.val = p.val; omega
    | ⟨2, _⟩ => show win0_0.index t (2 : Fin 3) * 128 + 1 * k.val = k.val; omega
  rw [he]; exact V_v1_apply m c _ p k

/-- The z block of point t at (0, r, k): z[n, k, l]. -/
theorem zblk_apply (c : Dev nD) (t : Fin cfg0.N) (r : Fin 32) (k : Fin 128) :
    (iblk m c 1 t : Vec Ideal S1x32x128 .f32) (ix3 (0 : Fin 1) r k) = zarr m c (ix3 (batchOf t) k (posOf t r)) := by
  obtain ⟨-, -, -, e0, e1, e2, -⟩ := idx_facts t
  show V m c main_v0 (((cfg0.win 1).blk t).view.emb (ix3 (0 : Fin 1) r k)) = _
  have he : ((cfg0.win 1).blk t).view.emb (ix3 (0 : Fin 1) r k) = ix3 (batchOf t) (posOf t r) k := by
    funext a; refine Fin.ext ?_
    match a with
    | ⟨0, _⟩ => show win0_1.index t (0 : Fin 3) * 1 + 1 * 0 = t.val / 32; omega
    | ⟨1, _⟩ => show win0_1.index t (1 : Fin 3) * 32 + 1 * r.val = 32 * (t.val % 32) + r.val; omega
    | ⟨2, _⟩ => show win0_1.index t (2 : Fin 3) * 128 + 1 * k.val = k.val; omega
  rw [he]; exact V_v0_apply m c _ _ k

/-- The c block of point t at (0, r, k): c[n, k, l + 1]. -/
theorem cblk_apply (c : Dev nD) (t : Fin cfg0.N) (r : Fin 32) (k : Fin 128) :
    (iblk m c 2 t : Vec Ideal S1x32x128 .f32) (ix3 (0 : Fin 1) r k) = ctx (carr m c) (batchOf t) (posOf t r) k := by
  obtain ⟨-, -, -, -, -, -, e0, e1, e2, -⟩ := idx_facts t
  show V m c main_v3 (((cfg0.win 2).blk t).view.emb (ix3 (0 : Fin 1) r k)) = _
  have he : ((cfg0.win 2).blk t).view.emb (ix3 (0 : Fin 1) r k) = ix3 (batchOf t) (posOf t r) k := by
    funext a; refine Fin.ext ?_
    match a with
    | ⟨0, _⟩ => show win0_2.index t (0 : Fin 3) * 1 + 1 * 0 = t.val / 32; omega
    | ⟨1, _⟩ => show win0_2.index t (1 : Fin 3) * 32 + 1 * r.val = 32 * (t.val % 32) + r.val; omega
    | ⟨2, _⟩ => show win0_2.index t (2 : Fin 3) * 128 + 1 * k.val = k.val; omega
  rw [he]; exact V_v3_apply m c _ _ k

/-- The index block of point t at (0, r, j): idx[n, l, j]. -/
theorem nblk_apply (c : Dev nD) (t : Fin cfg0.N) (r : Fin 32) (j : Fin 100) :
    (iblk m c 3 t : Vec Ideal S1x32x100 .i32) (ix3 (0 : Fin 1) r j) = iarr m c (ix3 (batchOf t) (posOf t r) j) := by
  obtain ⟨-, -, -, -, -, -, -, -, -, e0, e1, e2, -⟩ := idx_facts t
  show V m c main_arg2 (((cfg0.win 3).blk t).view.emb (ix3 (0 : Fin 1) r j)) = _
  have he : ((cfg0.win 3).blk t).view.emb (ix3 (0 : Fin 1) r j) = ix3 (batchOf t) (posOf t r) j := by
    funext a; refine Fin.ext ?_
    match a with
    | ⟨0, _⟩ => show win0_3.index t (0 : Fin 3) * 1 + 1 * 0 = t.val / 32; omega
    | ⟨1, _⟩ => show win0_3.index t (1 : Fin 3) * 32 + 1 * r.val = 32 * (t.val % 32) + r.val; omega
    | ⟨2, _⟩ => show win0_3.index t (2 : Fin 3) * 100 + 1 * j.val = j.val; omega
  rw [he, V_main_arg2]

/-- Row r, column q of point t's output block is row 1024 n + l, column q of the result. -/
theorem oblk_emb (t : Fin cfg0.N) (r : Fin 32) (q : Fin 101) :
    ((cfg0.win 4).blk t).view.emb (ix2 r q)
      = ix2 (⟨1024 * (batchOf t).val + (posOf t r).val, by have := pt_lt t; show 1024 * (t.val / 32) + (32 * (t.val % 32) + r.val) < 8192; omega⟩ : Fin 8192) q := by
  obtain ⟨-, -, -, -, -, -, -, -, -, -, -, -, e0, e1⟩ := idx_facts t
  funext a; refine Fin.ext ?_
  match a with
  | ⟨0, _⟩ => show win0_4.index t (0 : Fin 2) * 32 + 1 * r.val = 1024 * (t.val / 32) + (32 * (t.val % 32) + r.val); omega
  | ⟨1, _⟩ => show win0_4.index t (1 : Fin 2) * 101 + 1 * q.val = q.val; omega

end Cert.KBlocks

end
-- ==== Proof.KPieces.lean ====
/-
  What one grid point's body leaves in its [32, 101] output block, as ONE function of the block index: column 0 is the
  stored [32, 1] column of self logits, columns 1 … 100 the stored [32, 100] rectangle of negative logits. The two
  stores' rectangles tile the block, and each store's payload is this function on its rectangle.
-/
import proofs.«425351_j8435315769539_1_alg».proof.Proof.Gen.KernelIdeal.Frame
import Idealize.ShloMosaic.Lib.ValueIdx
import Idealize.ShloMosaic.Lib.Pipeline.Value

set_option maxRecDepth 16384

noncomputable section

namespace Cert.KPieces

open Idealize.ShloMosaic Idealize.ShloMosaic.ValueIdx Idealize.ShloMosaic.TcCoe Idealize.ShloMosaic.Tactic Idealize.SL.Sem
open Cert.KernelIdeal Cert.KernelIdeal.Gen

variable {F : FTy → Type} [FloatOps F] [Named F]

/-- The output block as a function of the block index (row, column). -/
def blockOut (x0 : Vec F S1x1024x128 .bf16) (x1 x2 : Vec F S1x32x128 .f32) (x3 : Vec F S1x32x100 .i32) : Vec F S32x101 .f32 :=
  fun y => if h : (y 1).val = 0 then k0_pay5 x1 x2 (ix2 (y 0) (0 : Fin 1))
    else k0_pay1 (k0_pay2 x0 x3) (k0_pay4 x2) (k0_pay6 x2) (ix2 (y 0) ⟨(y 1).val - 1, by have := idx2_lt1 y; omega⟩)

theorem out_eq (c : Dev nD) (i : grid0.Coords) (arg2 : Memref sig .tc .vmem S1x1024x128 .bf16) (harg2 : arg2.IsWhole) (arg3 : Memref sig .tc .vmem S1x32x128 .f32) (harg3 : arg3.IsWhole) (arg4 : Memref sig .tc .vmem S1x32x128 .f32) (harg4 : arg4.IsWhole) (arg5 : Memref sig .tc .vmem S1x32x100 .i32) (harg5 : arg5.IsWhole) (arg6 : Memref sig .tc .vmem S32x101 .f32) (harg6 : arg6.IsWhole)
    (x0 : Vec F S1x1024x128 .bf16) (x1 : Vec F S1x32x128 .f32) (x2 : Vec F S1x32x128 .f32) (x3 : Vec F S1x32x100 .i32) :
    out0_A_4 c i arg2 harg2 arg3 harg3 arg4 harg4 arg5 harg5 arg6 harg6 x0 x1 x2 x3 = blockOut x0 x1 x2 x3 := by
  funext y
  unfold out0_A_4
  refine View.read_writes_apply_of_pieces _ _ (blockOut x0 x1 x2 x3) _ ?_ y (cover0_A_4 c i arg2 harg2 arg3 harg3 arg4 harg4 arg5 harg5 arg6 harg6 x0 x1 x2 x3 y)
  unfold kernelRun0_A
  dsimp only
  sl_unfold_words
  have hz3 : (![0, 0, 0] : Fin 3 → Nat) = fun _ => 0 := by funext a; fin_cases a <;> rfl
  simp only [View.readAt_eq_ld, harg2.read_unread, harg3.read_unread, harg4.read_unread, harg5.read_unread,
    View.ld_unit_zero (S := S1x1024x128) hz3, View.ld_unit_zero (S := S1x32x128) hz3, View.ld_unit_zero (S := S1x32x100) hz3]
  intro p hp
  simp only [List.mem_cons, List.not_mem_nil, or_false] at hp
  rcases hp with rfl | rfl
  · intro x
    show k0_pay1 (k0_pay2 x0 x3) (k0_pay4 x2) (k0_pay6 x2) x
      = blockOut x0 x1 x2 x3 ((Rect.unit (s := S32x101) ![0, 1] ![32, 100] inb_S32x101_S32x100_0_1).emb x)
    have h1 : ((Rect.unit (s := S32x101) ![0, 1] ![32, 100] inb_S32x101_S32x100_0_1).emb x 1).val = 1 + 1 * (x 1).val := by rfl
    have h0 : ((Rect.unit (s := S32x101) ![0, 1] ![32, 100] inb_S32x101_S32x100_0_1).emb x 0).val = 0 + 1 * (x 0).val := by rfl
    unfold blockOut
    rw [dif_neg (by rw [h1]; omega)]
    congr 1
    funext a
    refine Fin.ext ?_
    match a with
    | ⟨0, _⟩ => show (x 0).val = ((Rect.unit (s := S32x101) ![0, 1] ![32, 100] inb_S32x101_S32x100_0_1).emb x 0).val; rw [h0]; omega
    | ⟨1, _⟩ => show (x 1).val = ((Rect.unit (s := S32x101) ![0, 1] ![32, 100] inb_S32x101_S32x100_0_1).emb x 1).val - 1; rw [h1]; omega
  · intro x
    show k0_pay5 x1 x2 x = blockOut x0 x1 x2 x3 ((Rect.unit (s := S32x101) ![0, 0] ![32, 1] inb_S32x101_S32x1_0_0).emb x)
    have h1 : ((Rect.unit (s := S32x101) ![0, 0] ![32, 1] inb_S32x101_S32x1_0_0).emb x 1).val = 0 + 1 * (x 1).val := by rfl
    have h0 : ((Rect.unit (s := S32x101) ![0, 0] ![32, 1] inb_S32x101_S32x1_0_0).emb x 0).val = 0 + 1 * (x 0).val := by rfl
    have hx1 : (x 1).val = 0 := Nat.lt_one_iff.mp (show (x 1).val < 1 from (x 1).isLt)
    unfold blockOut
    rw [dif_pos (by rw [h1, hx1])]
    congr 1
    funext a
    refine Fin.ext ?_
    match a with
    | ⟨0, _⟩ => show (x 0).val = ((Rect.unit (s := S32x101) ![0, 0] ![32, 1] inb_S32x101_S32x1_0_0).emb x 0).val; rw [h0]; omega
    | ⟨1, _⟩ => show (x 1).val = 0; exact hx1

end Cert.KPieces

end
-- ==== Proof.KGather.lean ====
/-
  The kernel's gather by a one-hot matrix product. Row (r, j) of the selector holds a one in the column named by the
  index word idx[r, j] and zeros elsewhere, so its product with the [1024, 128] table is the table's row idx[r, j]:
  a sum over the 1024 positions in which one term survives.
-/
import proofs.«425351_j8435315769539_1_alg».proof.Proof.Gen.KernelIdeal.Skeleton
import proofs.«425351_j8435315769539_1_alg».proof.Proof.Spec
import Idealize.ShloMosaic.PureOps.Ideal.Laws
import Idealize.ShloMosaic.Lib.Pipeline.Value
import Idealize.ShloMosaic.Lib.StableHlo.Predicate

noncomputable section

open scoped BigOperators

namespace Cert.KGather

open Idealize.ShloMosaic Idealize.ShloMosaic.ValueIdx Cert.Spec
open Cert.KernelIdeal Cert.KernelIdeal.Gen

/-! ## The product's operand indices, axis by axis

The product contracts axis 1 of the [3200, 1024] selector with axis 0 of the [1024, 128] table. At result index
(a, k) and contraction position q the selector is read at (a, q) and the table at (q, k). -/

theorem lhs_dot_S3200x1024_S1024x128_S3200x128_1_0_0_1_n_n_0 (i : S3200x128.Idx)
    (q : dot_S3200x1024_S1024x128_S3200x128_1_0_0_1_n_n.contr.Idx) :
    (dot_S3200x1024_S1024x128_S3200x128_1_0_0_1_n_n.lhsIdx i q 0).val = (i 0).val := by
  unfold DotDims.lhsIdx
  rw [dif_neg (show ¬(0 : Fin S3200x1024.rank) ∈ dot_S3200x1024_S1024x128_S3200x128_1_0_0_1_n_n.lhsBatch by decide),
    dif_pos (show (0 : Fin S3200x1024.rank) ∈ dot_S3200x1024_S1024x128_S3200x128_1_0_0_1_n_n.lhsNonContracting by decide)]
  rfl

theorem lhs_dot_S3200x1024_S1024x128_S3200x128_1_0_0_1_n_n_1 (i : S3200x128.Idx)
    (q : dot_S3200x1024_S1024x128_S3200x128_1_0_0_1_n_n.contr.Idx) :
    (dot_S3200x1024_S1024x128_S3200x128_1_0_0_1_n_n.lhsIdx i q 1).val = (q ⟨0, by decide⟩).val :=
  dot_S3200x1024_S1024x128_S3200x128_1_0_0_1_n_n.lhsIdx_val_of_single rfl i q

theorem rhs_dot_S3200x1024_S1024x128_S3200x128_1_0_0_1_n_n_0 (i : S3200x128.Idx)
    (q : dot_S3200x1024_S1024x128_S3200x128_1_0_0_1_n_n.contr.Idx) :
    (dot_S3200x1024_S1024x128_S3200x128_1_0_0_1_n_n.rhsIdx i q 0).val = (q ⟨0, by decide⟩).val :=
  dot_S3200x1024_S1024x128_S3200x128_1_0_0_1_n_n.rhsIdx_val_of_single rfl i q

theorem rhs_dot_S3200x1024_S1024x128_S3200x128_1_0_0_1_n_n_1 (i : S3200x128.Idx)
    (q : dot_S3200x1024_S1024x128_S3200x128_1_0_0_1_n_n.contr.Idx) :
    (dot_S3200x1024_S1024x128_S3200x128_1_0_0_1_n_n.rhsIdx i q 1).val = (i 1).val := by
  unfold DotDims.rhsIdx
  rw [dif_neg (show ¬(1 : Fin S1024x128.rank) ∈ dot_S3200x1024_S1024x128_S3200x128_1_0_0_1_n_n.rhsBatch by decide),
    dif_pos (show (1 : Fin S1024x128.rank) ∈ dot_S3200x1024_S1024x128_S3200x128_1_0_0_1_n_n.rhsNonContracting by decide)]
  rfl

/-- The product into the zero accumulator, read at (a, k): the sum over the 1024 positions p of selector (a, p)
    times table (p, k). -/
theorem product_apply (A : FVec Ideal S3200x1024 .bf16) (B : FVec Ideal S1024x128 .bf16) (a : Fin 3200) (k : Fin 128) :
    matmul (F := Ideal) dot_S3200x1024_S1024x128_S3200x128_1_0_0_1_n_n none A B (constant S3200x128 .f32 0x00000000#32) (ix2 a k)
      = ∑ p : Fin 1024, A (ix2 a p) * B (ix2 p k) := by
  simp only [matmul]
  rw [Ideal.matmul_constant_zero_apply,
    ← Equiv.sum_comp (contrEquiv1 dot_S3200x1024_S1024x128_S3200x128_1_0_0_1_n_n 1024 rfl rfl).symm]
  refine Finset.sum_congr rfl fun p _ => ?_
  have hp := contrEquiv1_symm_val dot_S3200x1024_S1024x128_S3200x128_1_0_0_1_n_n 1024 rfl rfl p
  have el : dot_S3200x1024_S1024x128_S3200x128_1_0_0_1_n_n.lhsIdx (ix2 a k)
      ((contrEquiv1 dot_S3200x1024_S1024x128_S3200x128_1_0_0_1_n_n 1024 rfl rfl).symm p) = ix2 a p :=
    funext fun ax => Fin.ext (by
      match ax with
      | ⟨0, _⟩ => exact lhs_dot_S3200x1024_S1024x128_S3200x128_1_0_0_1_n_n_0 _ _
      | ⟨1, _⟩ => exact (lhs_dot_S3200x1024_S1024x128_S3200x128_1_0_0_1_n_n_1 _ _).trans hp)
  have er : dot_S3200x1024_S1024x128_S3200x128_1_0_0_1_n_n.rhsIdx (ix2 a k)
      ((contrEquiv1 dot_S3200x1024_S1024x128_S3200x128_1_0_0_1_n_n 1024 rfl rfl).symm p) = ix2 p k :=
    funext fun ax => Fin.ext (by
      match ax with
      | ⟨0, _⟩ => exact (rhs_dot_S3200x1024_S1024x128_S3200x128_1_0_0_1_n_n_0 _ _).trans hp
      | ⟨1, _⟩ => exact rhs_dot_S3200x1024_S1024x128_S3200x128_1_0_0_1_n_n_1 _ _)
  rw [el, er]

/-! ## The selector's entries -/

/-- The index word of row (r, j), spread along the 1024 positions. -/
theorem word_apply (x3 : IVec S1x32x100 32) (h1 : S1x32x100.ShapeCasts S32x100) (h2 : S32x100.ShapeCasts S32x100x1)
    (h3 : S32x100x1.Broadcasts S32x100x1024) (r : Fin 32) (j : Fin 100) (p : Fin 1024) :
    broadcastTo S32x100x1024 (shapeCast S32x100x1 (shapeCast S32x100 x3 h1) h2) h3 (ix3 r j p)
      = x3 (ix3 (0 : Fin 1) r j) := by
  refine (broadcastTo_apply _ h3 (ix3 r j p) (ix3 r j (0 : Fin 1)) (fun ax => ?_)).trans ?_
  · match ax with
    | ⟨0, _⟩ => rfl
    | ⟨1, _⟩ => rfl
    | ⟨2, _⟩ => rfl
  refine (shapeCast_apply _ h2 (ix3 r j (0 : Fin 1)) (ix2 r j) ?_).trans ?_
  · rw [Shape.rowMajor_val_two, Shape.rowMajor_val_three]
    show r.val * 100 + j.val = (r.val * 100 + j.val) * 1 + 0
    omega
  refine shapeCast_apply _ h1 (ix2 r j) (ix3 (0 : Fin 1) r j) ?_
  rw [Shape.rowMajor_val_two, Shape.rowMajor_val_three]
  show (0 * 32 + r.val) * 100 + j.val = r.val * 100 + j.val
  omega

/-- The position counter, spread along the rows: at (r, j, p) it is the word p. -/
theorem lane_apply (h : S1x1x1024.Iotas .tc 32 [2]) (h' : S1x1x1024.Broadcasts S32x100x1024)
    (r : Fin 32) (j : Fin 100) (p : Fin 1024) :
    broadcastTo S32x100x1024 (iota .tc S1x1x1024 32 [2] h) h' (ix3 r j p) = BitVec.ofNat 32 p.val := by
  refine (broadcastTo_apply _ h' (ix3 r j p) (ix3 (0 : Fin 1) (0 : Fin 1) p) (fun ax => ?_)).trans ?_
  · match ax with
    | ⟨0, _⟩ => rfl
    | ⟨1, _⟩ => rfl
    | ⟨2, _⟩ => rfl
  exact iota_single_apply .tc S1x1x1024 32 2 h _

/-- A word below 1024 is the word of the position p exactly when p is its value. -/
theorem word_eq_ofNat_iff (w : BitVec 32) (hw : w.toNat < 1024) (p : Fin 1024) :
    w = BitVec.ofNat 32 p.val ↔ p = rowOf w := by
  constructor
  · intro h
    apply Fin.ext
    rw [rowOf_val hw, h, BitVec.toNat_ofNat]
    have := p.isLt
    omega
  · intro h
    apply BitVec.eq_of_toNat_eq
    rw [BitVec.toNat_ofNat, h, rowOf_val hw]
    omega

/-- A comparison bit, widened to a word and converted, is one where the words agree and zero elsewhere. -/
theorem bit_value (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.mpr h]
    show ((((1#1 : BitVec 1).setWidth 32).toInt : ℝ) : EReal) = 1
    norm_num
  · rw [if_neg h, eq_zero_of_ne_one (fun h1 => h (StableHlo.Predicate.cmpi_eq_iff.mp h1))]
    show ((((0#1 : BitVec 1).setWidth 32).toInt : ℝ) : EReal) = 0
    norm_num

/-- The selector at row 100 r + j and column p: one where the index word of (r, j) is the word p, zero elsewhere. -/
theorem selector_apply (x3 : IVec S1x32x100 32) (h1 : S1x32x100.ShapeCasts S32x100) (h2 : S32x100.ShapeCasts S32x100x1)
    (h3 : S32x100x1.Broadcasts S32x100x1024) (h4 : S1x1x1024.Iotas .tc 32 [2]) (h5 : S1x1x1024.Broadcasts S32x100x1024)
    (h6 : 1 < 32) (h7 : FTy.bits .bf16 < FTy.bits .f32) (h8 : S32x100x1024.ShapeCasts S3200x1024)
    (r : Fin 32) (j : Fin 100) (p : Fin 1024) :
    shapeCast S3200x1024
        (truncf (F := Ideal) .bf16
          (sitofp .f32
            (extui 32
              (cmpi .eq (broadcastTo S32x100x1024 (shapeCast S32x100x1 (shapeCast S32x100 x3 h1) h2) h3)
                (broadcastTo S32x100x1024 (iota .tc S1x1x1024 32 [2] h4) h5))
              h6))
          h7)
        h8 (ix2 (⟨100 * r.val + j.val, by omega⟩ : Fin 3200) p)
      = if x3 (ix3 (0 : Fin 1) r j) = BitVec.ofNat 32 p.val then 1 else 0 := by
  refine (shapeCast_apply _ h8 (ix2 (⟨100 * r.val + j.val, by omega⟩ : Fin 3200) p) (ix3 r j p) ?_).trans ?_
  · rw [Shape.rowMajor_val_two, Shape.rowMajor_val_three]
    show (r.val * 100 + j.val) * 1024 + p.val = (100 * r.val + j.val) * 1024 + p.val
    omega
  show (FloatOps.sitofp (F := Ideal) .f32
      ((IntOp.cmpi .eq (broadcastTo S32x100x1024 (shapeCast S32x100x1 (shapeCast S32x100 x3 h1) h2) h3 (ix3 r j p))
        (broadcastTo S32x100x1024 (iota .tc S1x1x1024 32 [2] h4) h5 (ix3 r j p))).setWidth 32) : EReal) = _
  rw [word_apply, lane_apply, bit_value]

/-- The table viewed [1024, 128]: its entry (p, k) is x0[0, p, k]. -/
theorem table_apply {α : Type} (x0 : S1x1024x128.Idx → α) (h : S1x1024x128.ShapeCasts S1024x128) (p : Fin 1024) (k : Fin 128) :
    shapeCast S1024x128 x0 h (ix2 p k) = x0 (ix3 (0 : Fin 1) p k) := by
  refine shapeCast_apply _ h (ix2 p k) (ix3 (0 : Fin 1) p k) ?_
  rw [Shape.rowMajor_val_two, Shape.rowMajor_val_three]
  show (0 * 1024 + p.val) * 128 + k.val = p.val * 128 + k.val
  omega

/-- The gathered block at (r, j, k) is the table's row named by the index word. -/
theorem gathered_apply (x0 : Vec Ideal S1x1024x128 .bf16) (x3 : Vec Ideal S1x32x100 .i32)
    (r : Fin 32) (j : Fin 100) (k : Fin 128) (hidx : (x3 (ix3 (0 : Fin 1) r j)).toNat < 1024) :
    k0_pay2 (F := Ideal) x0 x3 (ix3 r j k) = x0 (ix3 (0 : Fin 1) (rowOf (x3 (ix3 (0 : Fin 1) r j))) k) := by
  unfold k0_pay2
  -- the [32, 100, 128] view reads row 100 r + j of the [3200, 128] product
  refine (shapeCast_apply _ _ (ix3 r j k) (ix2 (⟨100 * r.val + j.val, by omega⟩ : Fin 3200) k) ?_).trans ?_
  · rw [Shape.rowMajor_val_two, Shape.rowMajor_val_three]
    show (100 * r.val + j.val) * 128 + k.val = (r.val * 100 + j.val) * 128 + k.val
    omega
  refine (product_apply _ _ _ _).trans ?_
  -- of the 1024 terms only the one at the named position survives
  rw [Finset.sum_eq_single (rowOf (x3 (ix3 (0 : Fin 1) r j)))]
  · rw [selector_apply, table_apply,
      if_pos ((word_eq_ofNat_iff _ hidx _).mpr rfl), one_mul]
  · intro p _ hp
    rw [selector_apply, if_neg (fun h => hp ((word_eq_ofNat_iff _ hidx p).mp h)), zero_mul]
  · intro h
    exact absurd (Finset.mem_univ _) h

end Cert.KGather

end
-- ==== Proof.KPayload.lean ====
/-
  What the kernel body stores, read at an index over the extended reals: column 0 of a block's row r is the cosine
  logit of the context row with the z row at the same position; column j + 1 is the masked logit of the context row
  with the gathered table row. The kernel tests "target equals context" by max |c − t| = 0 over the channels, which
  for real (finite) entries says c = t in every channel.
-/
import proofs.«425351_j8435315769539_1_alg».proof.Proof.KGather

noncomputable section

open scoped BigOperators

namespace Cert.KPayload

open Idealize.ShloMosaic Idealize.ShloMosaic.ValueIdx Cert.Spec
open Cert.KernelIdeal Cert.KernelIdeal.Gen

/-! ### Layout operations of the body read at coordinates -/

/-- A [1, 32, 128] block viewed as [32, 128] reads (0, r, k) at (r, k). -/
theorem cast_block {α : Type} (x : S1x32x128.Idx → α) (r : Fin 32) (k : Fin 128) :
    shapeCast S32x128 x shapeCasts_S1x32x128_S32x128 (ix2 r k) = x (ix3 (0 : Fin 1) r k) := by
  refine shapeCast_apply x _ (ix2 r k) (ix3 (0 : Fin 1) r k) ?_
  rw [Shape.rowMajor_val_three, Shape.rowMajor_val_two]
  show (0 * 32 + r.val) * 128 + k.val = r.val * 128 + k.val
  omega

/-- A [32] vector viewed as a [32, 1] column reads r at (r, 0). -/
theorem cast_col {α : Type} (v : S32.Idx → α) (r : Fin 32) :
    shapeCast S32x1 v shapeCasts_S32_S32x1 (ix2 r (0 : Fin 1)) = v (ix1 r) := by
  refine shapeCast_apply v _ (ix2 r (0 : Fin 1)) (ix1 r) ?_
  rw [Shape.rowMajor_val_two, Shape.rowMajor_val_one]
  show r.val = r.val * 1 + 0
  omega

/-- A [32, 128] block viewed as [32, 1, 128] reads (r, k) at (r, 0, k). -/
theorem cast_mid {α : Type} (u : S32x128.Idx → α) (r : Fin 32) (k : Fin 128) :
    shapeCast S32x1x128 u shapeCasts_S32x128_S32x1x128 (ix3 r (0 : Fin 1) k) = u (ix2 r k) := by
  refine shapeCast_apply u _ (ix3 r (0 : Fin 1) k) (ix2 r k) ?_
  rw [Shape.rowMajor_val_three, Shape.rowMajor_val_two]
  show r.val * 128 + k.val = (r.val * 1 + 0) * 128 + k.val
  omega

/-- A [32, 1, 128] block broadcast along the sample axis reads (r, 0, k) at (r, j, k). -/
theorem bcast_mid {α : Type} (v : S32x1x128.Idx → α) (r : Fin 32) (j : Fin 100) (k : Fin 128) :
    broadcastTo S32x100x128 v broadcasts_S32x1x128_S32x100x128 (ix3 r j k) = v (ix3 r (0 : Fin 1) k) := by
  refine broadcastTo_apply v _ (ix3 r j k) (ix3 r (0 : Fin 1) k) ?_
  intro a
  match a with
  | ⟨0, _⟩ => rfl
  | ⟨1, _⟩ => rfl
  | ⟨2, _⟩ => rfl

/-- A [32, 1] column broadcast along the sample axis reads (r, 0) at (r, j). -/
theorem bcast_col {α : Type} (v : S32x1.Idx → α) (r : Fin 32) (j : Fin 100) :
    broadcastTo S32x100 v broadcasts_S32x1_S32x100 (ix2 r j) = v (ix2 r (0 : Fin 1)) := by
  refine broadcastTo_apply v _ (ix2 r j) (ix2 r (0 : Fin 1)) ?_
  intro a
  match a with
  | ⟨0, _⟩ => rfl
  | ⟨1, _⟩ => rfl

/-! ### The channel reductions read at coordinates -/

/-- The sum over the 128 channels of a [32, 128] block at row r. -/
theorem row_sum (w : FVec Ideal S32x128 .f32) (r : Fin 32) :
    multiReduction (F := Ideal) .add [1] S32 w 0x00000000#32 reduces_S32x128_S32 (.inl rfl) rfl (ix1 r)
      = ∑ k : Fin 128, w (ix2 r k) := by
  refine (Ideal.multiReduction_add_single w _ reduces_S32x128_S32 (.inl rfl) rfl (ix1 r)).trans ?_
  refine Finset.sum_congr rfl fun k _ => congrArg w ?_
  funext a
  match a with
  | ⟨0, _⟩ => rfl
  | ⟨1, _⟩ => rfl

/-- The sum over the 128 channels of a [32, 100, 128] block at (r, j). -/
theorem lane_sum (w : FVec Ideal S32x100x128 .f32) (r : Fin 32) (j : Fin 100) :
    multiReduction (F := Ideal) .add [2] S32x100 w 0x00000000#32 reduces_S32x100x128_S32x100 (.inl rfl) rfl (ix2 r j)
      = ∑ k : Fin 128, w (ix3 r j k) := by
  refine (Ideal.multiReduction_add_single w _ reduces_S32x100x128_S32x100 (.inl rfl) rfl (ix2 r j)).trans ?_
  refine Finset.sum_congr rfl fun k _ => congrArg w ?_
  funext a
  match a with
  | ⟨0, _⟩ => rfl
  | ⟨1, _⟩ => rfl
  | ⟨2, _⟩ => rfl

/-- The f32 pattern of −∞ is the bottom of the extended reals. -/
theorem ofBits_neg_inf : Ideal.ofBits .f32 0xFF800000#32 = (⊥ : EReal) := by simp [Ideal.ofBits, Ideal.ieee]

/-- The maximum over the 128 channels of a [32, 100, 128] block at (r, j), from −∞. -/
theorem lane_max (w : FVec Ideal S32x100x128 .f32) (r : Fin 32) (j : Fin 100) :
    multiReduction (F := Ideal) .maximumf [2] S32x100 w 0xFF800000#32 reduces_S32x100x128_S32x100 (.inl rfl) rfl (ix2 r j)
      = (Finset.univ : Finset (Fin 128)).fold max (⊥ : EReal) (fun k => w (ix3 r j k)) := by
  refine (Ideal.multiReduction_maximumf_single w _ reduces_S32x100x128_S32x100 (.inl rfl) rfl (ix2 r j)).trans ?_
  show (Finset.univ : Finset (Fin 128)).fold max (Ideal.ofBits .f32 0xFF800000#32) _ = _
  rw [ofBits_neg_inf]
  congr 1
  funext k
  refine congrArg w ?_
  funext a
  match a with
  | ⟨0, _⟩ => rfl
  | ⟨1, _⟩ => rfl
  | ⟨2, _⟩ => rfl

/-! ### The mask's test on real vectors -/

/-- For real vectors the largest |a − b| over the 128 channels (from −∞) is 0 exactly when they agree in every channel. -/
theorem fold_abs_eq_zero_iff (a b : Fin 128 → ℝ) :
    (Finset.univ : Finset (Fin 128)).fold max (⊥ : EReal)
        (fun k => max ((a k : EReal) - (b k : EReal)) (-((a k : EReal) - (b k : EReal)))) = 0
      ↔ ∀ k, a k = b k := by
  have hf : ∀ k, max ((a k : EReal) - (b k : EReal)) (-((a k : EReal) - (b k : EReal))) = ((|a k - b k| : ℝ) : EReal) := by
    intro k
    rw [← EReal.coe_sub, ← EReal.coe_neg, abs_eq_max_neg]
    exact (EReal.coe_strictMono.monotone.map_max).symm
  simp only [hf]
  constructor
  · intro h k
    have hle : (Finset.univ : Finset (Fin 128)).fold max (⊥ : EReal) (fun k => ((|a k - b k| : ℝ) : EReal)) ≤ 0 := h.le
    rw [Finset.fold_max_le] at hle
    have hk : ((|a k - b k| : ℝ) : EReal) ≤ 0 := hle.2 k (Finset.mem_univ k)
    have h0 : |a k - b k| ≤ 0 := by exact_mod_cast hk
    have h1 : a k - b k = 0 := abs_nonpos_iff.mp h0
    linarith
  · intro h
    apply le_antisymm
    · rw [Finset.fold_max_le]
      refine ⟨bot_le, fun k _ => ?_⟩
      rw [h k, sub_self, abs_zero, EReal.coe_zero]
    · rw [Finset.le_fold_max]
      refine Or.inr ⟨(0 : Fin 128), Finset.mem_univ _, ?_⟩
      exact_mod_cast abs_nonneg (a 0 - b 0)

/-- The same over extended-real vectors whose entries are real. -/
theorem mask_iff (c t : Fin 128 → EReal) (hc : ∀ k, ∃ v : ℝ, c k = (v : EReal)) (ht : ∀ k, ∃ v : ℝ, t k = (v : EReal)) :
    (Finset.univ : Finset (Fin 128)).fold max (⊥ : EReal) (fun k => max (c k - t k) (-(c k - t k))) = 0
      ↔ ∀ k, c k = t k := by
  choose a ha using hc
  choose b hb using ht
  simp only [ha, hb, EReal.coe_eq_coe_iff]
  exact fold_abs_eq_zero_iff a b

/-- The absolute value of a block at an index. -/
theorem absf_at {s : Shape} (a : FVec Ideal s .f32) (i : s.Idx) : absf a i = max (a i) (-(a i)) := rfl

/-- The square root of a block at an index. -/
theorem sqrt_at {s : Shape} (a : FVec Ideal s .f32) (i : s.Idx) : sqrt a i = Ideal.sqrt (a i) := rfl

/-! ### The body's intermediate blocks read at coordinates -/

/-- The context block as [32, 128]. -/
theorem pay3_apply (x2 : Vec Ideal S1x32x128 .f32) (r : Fin 32) (k : Fin 128) :
    k0_pay3 (F := Ideal) x2 (ix2 r k) = x2 (ix3 (0 : Fin 1) r k) := by
  unfold k0_pay3
  exact cast_block x2 r k

/-- The context block as [32, 1, 128]. -/
theorem pay6_apply (x2 : Vec Ideal S1x32x128 .f32) (r : Fin 32) (k : Fin 128) :
    k0_pay6 (F := Ideal) x2 (ix3 r (0 : Fin 1) k) = x2 (ix3 (0 : Fin 1) r k) := by
  unfold k0_pay6
  exact (cast_mid (k0_pay3 x2) r k).trans (pay3_apply x2 r k)

/-- The clamped norm of the context row. -/
theorem pay4_apply (x2 : Vec Ideal S1x32x128 .f32) (r : Fin 32) :
    k0_pay4 (F := Ideal) x2 (ix2 r (0 : Fin 1))
      = max (Ideal.sqrt (∑ k : Fin 128, x2 (ix3 (0 : Fin 1) r k) * x2 (ix3 (0 : Fin 1) r k))) eps := by
  unfold k0_pay4
  show max (Ideal.sqrt (shapeCast S32x1 (multiReduction (F := Ideal) .add [1] S32 (mulf (k0_pay3 x2) (k0_pay3 x2))
      0x00000000#32 reduces_S32x128_S32 (.inl rfl) rfl) shapeCasts_S32_S32x1 (ix2 r (0 : Fin 1))))
    (Ideal.ofBits .f32 0x322BCC77#32) = _
  rw [cast_col, row_sum]
  simp only [mulf_apply, pay3_apply]
  rfl
/-- Column 0: the context row against the z row of the same position. -/
theorem self_apply (x1 x2 : Vec Ideal S1x32x128 .f32) (r : Fin 32) :
    k0_pay5 (F := Ideal) x1 x2 (ix2 r (0 : Fin 1))
      = logit (fun k => x2 (ix3 (0 : Fin 1) r k)) (fun k => x1 (ix3 (0 : Fin 1) r k)) := by
  unfold k0_pay5
  show Ideal.div (Ideal.div
      (shapeCast S32x1 (multiReduction (F := Ideal) .add [1] S32
        (mulf (k0_pay3 x2) (shapeCast S32x128 x1 shapeCasts_S1x32x128_S32x128))
        0x00000000#32 reduces_S32x128_S32 (.inl rfl) rfl) shapeCasts_S32_S32x1 (ix2 r (0 : Fin 1)))
      (k0_pay4 x2 (ix2 r (0 : Fin 1)) *
        max (Ideal.sqrt (shapeCast S32x1 (multiReduction (F := Ideal) .add [1] S32
          (mulf (shapeCast S32x128 x1 shapeCasts_S1x32x128_S32x128) (shapeCast S32x128 x1 shapeCasts_S1x32x128_S32x128))
          0x00000000#32 reduces_S32x128_S32 (.inl rfl) rfl) shapeCasts_S32_S32x1 (ix2 r (0 : Fin 1))))
          (Ideal.ofBits .f32 0x322BCC77#32)))
    (Ideal.ofBits .f32 0x3F000000#32) = _
  rw [cast_col, cast_col, row_sum, row_sum, pay4_apply]
  simp only [mulf_apply, pay3_apply, cast_block]
  rfl

/-- Column j + 1: the context row against the table row the index word names, masked. -/
theorem neg_apply (x0 : Vec Ideal S1x1024x128 .bf16) (x2 : Vec Ideal S1x32x128 .f32) (x3 : Vec Ideal S1x32x100 .i32)
    (r : Fin 32) (j : Fin 100) (hidx : (x3 (ix3 (0 : Fin 1) r j)).toNat < 1024)
    (hx0 : ∀ i, ∃ v : ℝ, x0 i = (v : EReal)) (hx2 : ∀ i, ∃ v : ℝ, x2 i = (v : EReal)) :
    k0_pay1 (F := Ideal) (k0_pay2 x0 x3) (k0_pay4 x2) (k0_pay6 x2) (ix2 r j)
      = maskedLogit (fun k => x2 (ix3 (0 : Fin 1) r k))
          (fun k => x0 (ix3 (0 : Fin 1) (rowOf (x3 (ix3 (0 : Fin 1) r j))) k)) := by
  unfold k0_pay1
  simp only [select_apply, cmpf_apply, broadcast_apply, divf_apply, mulf_apply, maximumf_apply, sqrt_at, Ideal.cmpf_def]
  have hg : ∀ k, k0_pay2 (F := Ideal) x0 x3 (ix3 r j k) = x0 (ix3 (0 : Fin 1) (rowOf (x3 (ix3 (0 : Fin 1) r j))) k) :=
    fun k => KGather.gathered_apply x0 x3 r j k hidx
  have hκ : Named.named (F := Ideal) κ "neg_big" (φ := .f32) 0xF149F2CA#32 = (⊥ : EReal) := rfl
  rw [lane_max, lane_sum, lane_sum, bcast_col, pay4_apply, Ideal.ofBits_def, Ideal.ofBits_zero_f32, hκ]
  simp only [mulf_apply, subf_apply, absf_at, bcast_mid, pay6_apply, hg]
  have hm := mask_iff (fun k => x2 (ix3 (0 : Fin 1) r k)) (fun k => x0 (ix3 (0 : Fin 1) (rowOf (x3 (ix3 (0 : Fin 1) r j))) k))
    (fun k => hx2 _) (fun k => hx0 _)
  unfold maskedLogit
  by_cases h : ∀ k, x2 (ix3 (0 : Fin 1) r k) = x0 (ix3 (0 : Fin 1) (rowOf (x3 (ix3 (0 : Fin 1) r j))) k)
  · rw [if_pos h, hm.mpr h]
    have hc : Ideal.cmp .oeq (0 : EReal) 0 = 1#1 := by simp [Ideal.cmp]
    rw [hc, select_one]
  · rw [if_neg h]
    have hne : ¬ (Finset.univ : Finset (Fin 128)).fold max (⊥ : EReal)
        (fun k => max (x2 (ix3 (0 : Fin 1) r k) - x0 (ix3 (0 : Fin 1) (rowOf (x3 (ix3 (0 : Fin 1) r j))) k))
          (-(x2 (ix3 (0 : Fin 1) r k) - x0 (ix3 (0 : Fin 1) (rowOf (x3 (ix3 (0 : Fin 1) r j))) k)))) = 0 :=
      fun e => h (hm.mp e)
    have hc : Ideal.cmp .oeq ((Finset.univ : Finset (Fin 128)).fold max (⊥ : EReal)
        (fun k => max (x2 (ix3 (0 : Fin 1) r k) - x0 (ix3 (0 : Fin 1) (rowOf (x3 (ix3 (0 : Fin 1) r j))) k))
          (-(x2 (ix3 (0 : Fin 1) r k) - x0 (ix3 (0 : Fin 1) (rowOf (x3 (ix3 (0 : Fin 1) r j))) k))))) 0 = 0#1 := by
      simp [Ideal.cmp, hne]
    rw [hc, select_zero]
    rfl

end Cert.KPayload

end
-- ==== Proof.KValue.lean ====
/-
  The kernel's result array is the specification. Grid point t = 32 n + b writes back rows 32 t … 32 t + 31 of the
  [8192, 101] result, that is rows 1024 n + l for the positions l = 32 b + r of its tile; what it writes at (r, q) is
  the specification's entry (n, l, q), by the payloads read at an index and the blocks read as entries of the
  argument arrays. The 256 blocks tile the result (row i lies in block i / 32), so the array after the run is the
  specification everywhere.
-/
import proofs.«425351_j8435315769539_1_alg».proof.Proof.KBlocks
import proofs.«425351_j8435315769539_1_alg».proof.Proof.KPieces
import proofs.«425351_j8435315769539_1_alg».proof.Proof.KPayload

set_option maxRecDepth 16384

noncomputable section

namespace Cert.KValue

open Idealize.ShloMosaic Idealize.ShloMosaic.ValueIdx Idealize.ShloMosaic.TcCoe Idealize.SL.Sem
open Idealize.ShloMosaic.Pipeline (Dat)
open Cert.KernelIdeal Cert.KernelIdeal.Gen Cert.Spec Cert.KBlocks

variable (m : (ℓ : Loc nD τ sig) → Buf (Elt Ideal) ℓ) (ρ : Dev nD → PrngReg)

/-- What the arguments are assumed to be: real entries, index words in range. -/
structure Good (c : Dev nD) : Prop where
  hz : ∀ i, ∃ v : ℝ, zarr m c i = (v : EReal)
  hc : ∀ i, ∃ v : ℝ, carr m c i = (v : EReal)
  hi : ∀ i, (iarr m c i).toNat < 1024

/-- The block point t leaves, at (r, q), is the specification at row 1024 n + l, column q. -/
theorem block_eq (c : Dev nD) (t : Fin cfg0.N) (h : Good m c) (r : Fin 32) (q : Fin 101) :
    KPieces.blockOut (F := Ideal) (iblk m c 0 t : Vec Ideal S1x1024x128 .bf16) (iblk m c 1 t : Vec Ideal S1x32x128 .f32)
        (iblk m c 2 t : Vec Ideal S1x32x128 .f32) (iblk m c 3 t : Vec Ideal S1x32x100 .i32) (ix2 r q)
      = entry (zarr m c) (carr m c) (iarr m c) (batchOf t) (posOf t r) q := by
  unfold KPieces.blockOut entry
  by_cases hq : q.val = 0
  · rw [dif_pos (show ((ix2 r q : S32x101.Idx) 1).val = 0 from hq), dif_pos hq]
    refine (KPayload.self_apply _ _ r).trans ?_
    congr 1
    · funext k; exact cblk_apply m c t r k
    · funext k; exact zblk_apply m c t r k
  · rw [dif_neg (show ¬ ((ix2 r q : S32x101.Idx) 1).val = 0 from hq), dif_neg hq]
    have hx0 : ∀ i : S1x1024x128.Idx, ∃ v : ℝ, (iblk m c 0 t : Vec Ideal S1x1024x128 .bf16) i = (v : EReal) := by
      intro i
      obtain ⟨a, p, k, rfl⟩ : ∃ (a : Fin 1) (p : Fin 1024) (k : Fin 128), i = ix3 a p k := ⟨i 0, i 1, i 2, eq_ix3 i⟩
      obtain rfl : a = 0 := Subsingleton.elim _ _
      obtain ⟨v, hv⟩ := h.hz (ix3 (batchOf t) k p)
      exact ⟨v, (tbl_apply m c t p k).trans hv⟩
    have hx2 : ∀ i : S1x32x128.Idx, ∃ v : ℝ, (iblk m c 2 t : Vec Ideal S1x32x128 .f32) i = (v : EReal) := by
      intro i
      obtain ⟨a, p, k, rfl⟩ : ∃ (a : Fin 1) (p : Fin 32) (k : Fin 128), i = ix3 a p k := ⟨i 0, i 1, i 2, eq_ix3 i⟩
      obtain rfl : a = 0 := Subsingleton.elim _ _
      obtain ⟨v, hv⟩ := h.hc (ix3 (batchOf t) k ⟨(posOf t p).val + 1, by have := (posOf t p).isLt; omega⟩)
      exact ⟨v, (cblk_apply m c t p k).trans hv⟩
    have hj : q.val - 1 < 100 := by have := q.isLt; omega
    have hidx : ((iblk m c 3 t : Vec Ideal S1x32x100 .i32) (ix3 (0 : Fin 1) r ⟨q.val - 1, hj⟩)).toNat < 1024 := by
      rw [nblk_apply]; exact h.hi _
    refine (KPayload.neg_apply _ _ _ r ⟨q.val - 1, hj⟩ hidx hx0 hx2).trans ?_
    congr 1
    · funext k; exact cblk_apply m c t r k
    · funext k
      rw [nblk_apply, tbl_apply]
      rfl

/-- What point t writes back is block t of the specification. -/
theorem flushed_eq (c : Dev nD) (t : Fin cfg0.N) (h : Good m c) :
    (dats m 0 c).flushed 4 t = ((cfg0.win 4).blk t).view.read (Elt Ideal) (G (zarr m c) (carr m c) (iarr m c)) := by
  rw [Cert.KernelIdeal.Value.flushed4_A, KPieces.out_eq]
  funext y
  show KPieces.blockOut (F := Ideal) (iblk m c 0 t) (iblk m c 1 t) (iblk m c 2 t) (iblk m c 3 t) y
    = G (zarr m c) (carr m c) (iarr m c) (((cfg0.win 4).blk t).view.emb y)
  obtain ⟨r, q, rfl⟩ : ∃ (r : Fin 32) (q : Fin 101), y = ix2 r q := ⟨y 0, y 1, eq_ix2 y⟩
  rw [oblk_emb t r q, G_apply]
  exact block_eq m c t h r q

/-- An index of the result is in point t's block iff its row is among the block's 32 rows. -/
theorem mem_blk (t : Fin cfg0.N) (i : S8192x101.Idx) :
    i ∈ ((cfg0.win 4).blk t).view.set ↔ ∀ a : Fin 2, win0_4.index t a * S32x101.size a ≤ (i a).val ∧ (i a).val < win0_4.index t a * S32x101.size a + S32x101.size a := by
  show i ∈ ((View.whole main_v4).slice (win0_4.rect t)).set ↔ _
  rw [View.set_slice_whole, Rect.mem_set_unit]
  exact Iff.rfl

/-- Every index of the result lies in the block of the point its row names. -/
theorem cover (i : S8192x101.Idx) : ∃ t : Fin cfg0.N, (cfg0.win 4).flush t = true ∧ i ∈ ((cfg0.win 4).blk t).view.set := by
  have hi0 : (i 0).val < 8192 := (i 0).isLt
  have hi1 : (i 1).val < 101 := (i 1).isLt
  have hN : (i 0).val / 32 < cfg0.N := by rw [show cfg0.N = 256 from N_0]; omega
  refine ⟨⟨(i 0).val / 32, hN⟩, flush0_4 _, ?_⟩
  obtain ⟨-, -, -, -, -, -, -, -, -, -, -, -, e0, e1⟩ := idx_facts ⟨(i 0).val / 32, hN⟩
  rw [mem_blk]
  intro a
  match a with
  | ⟨0, _⟩ => show win0_4.index _ (0 : Fin 2) * 32 ≤ (i 0).val ∧ (i 0).val < win0_4.index _ (0 : Fin 2) * 32 + 32; rw [e0]; show (i 0).val / 32 * 32 ≤ _ ∧ _ < (i 0).val / 32 * 32 + 32; omega
  | ⟨1, _⟩ => show win0_4.index _ (1 : Fin 2) * 101 ≤ (i 1).val ∧ (i 1).val < win0_4.index _ (1 : Fin 2) * 101 + 101; rw [e1]; omega

/-- The result array after the run is the specification. -/
theorem final (c : Dev nD) (h : Good m c) :
    (dats m 0 c).arrAt 4 cfg0.N = G (zarr m c) (carr m c) (iarr m c) :=
  (dats m 0 c).arrAt_eq_of_cover 4 (G (zarr m c) (carr m c) (iarr m c)) (fun t _ => flushed_eq m c t h) cover

/-- The kernel's run with its result named: the specification of the arguments, which end unchanged. -/
theorem run (h : ∀ c, Good m c) : θ_run defs (onTc (τ := τ) (main (F := Ideal))) ⟨m, fun _ => 0, ρ⟩ fun r => ∀ c : Dev nD,
      r.2.mem ((c : Thread nD τ).loc main_v4) = G (zarr m c) (carr m c) (iarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨(hr c).1.trans (final m c (h c)), (hr c).2⟩)
    (Cert.KernelIdeal.Value.run_blocks m ρ)

end Cert.KValue

end
-- ==== Proof.PreDecode.lean ====
/-
  What the precondition says of the three argument arrays: every entry of z and of c is a real number (neither
  infinity), and every index word of idx, read as a signed integer, lies in [0, 1024) — so read unsigned it is
  below 1024.
-/
import proofs.«425351_j8435315769539_1_alg».proof.Pre_finite_inputs
import proofs.«425351_j8435315769539_1_alg».proof.Proof.Gen.Pre_finite_inputs
import proofs.«425351_j8435315769539_1_alg».proof.Proof.Spec
import Idealize.ShloMosaic.Lib.ReduceAll
import Idealize.ShloMosaic.Lib.StableHlo.Predicate

noncomputable section

open scoped BigOperators

namespace Cert.PreDecode

open Idealize.ShloMosaic Idealize.ShloMosaic.ValueIdx Cert.Spec

/-- The shape of rank 0 has exactly one index. -/
instance scalarIdx : Subsingleton Cert.Pre_finite_inputs.S_.Idx := ⟨fun a b => funext fun d => d.elim0⟩

/-- The f32 word with every exponent bit set and no fraction bit denotes +∞. -/
theorem inf_word : Ideal.ofBits .f32 0x7F800000#32 = (⊤ : EReal) := by
  simp [Ideal.ofBits, Ideal.ieee]

/-- An extended real x with |x| < +∞ is a real number: +∞ and −∞ both have |x| = +∞. -/
theorem real_of_abs_lt_top (x : EReal) (h : Ideal.cmp .olt (max x (-x)) ⊤ = 1#1) : ∃ r : ℝ, x = (r : EReal) := by
  unfold Ideal.cmp at h
  rw [StableHlo.Predicate.ofBool_eq_one_iff, decide_eq_true_eq] at h
  induction x using EReal.rec with
  | bot => simp at h
  | coe r => exact ⟨r, rfl⟩
  | top => simp at h

/-- A 32-bit word that reads signed as an integer in [0, 1024) reads unsigned as a number below 1024. -/
theorem toNat_lt_of_signed (w : BitVec 32) (h0 : IntOp.cmpi .sge w 0#32 = 1#1) (h1 : IntOp.cmpi .slt w 1024#32 = 1#1) :
    w.toNat < 1024 := by
  rw [IntOp.cmpi_sge, show (0#32 : BitVec 32).toInt = 0 from by decide] at h0
  rw [IntOp.cmpi_slt, show (1024#32 : BitVec 32).toInt = 1024 from by decide] at h1
  have hc := BitVec.toInt_eq_toNat_cond w
  split at hc <;> omega

/-- The precondition, evaluated all ones, decoded. -/
theorem decode (z : FVec Ideal Sz .f32) (c : FVec Ideal Sc .f32) (idx : IVec Si 32)
    (h : Cert.Pre_finite_inputs.fn (F := Ideal) z c idx = fun _ => 1#1) :
    (∀ i, ∃ r : ℝ, z i = (r : EReal)) ∧ (∀ i, ∃ r : ℝ, c i = (r : EReal)) ∧ (∀ i, (idx i).toNat < 1024) := by
  -- the rank-0 result at its one index is a conjunction of three all-reductions, each of which is 1
  have e := congrFun h ix0
  unfold Cert.Pre_finite_inputs.fn at e
  dsimp only at e
  obtain ⟨ezc, ei⟩ := IntOp.andi_eq_one.1 e
  obtain ⟨ez, ec⟩ := IntOp.andi_eq_one.1 ezc
  refine ⟨fun i => ?_, fun i => ?_, fun i => ?_⟩
  · -- |z i| < +∞
    have a : Ideal.cmp .olt (max (z i) (-(z i))) (Ideal.ofBits .f32 0x7F800000#32) = 1#1 :=
      Host.reduce_andi_all _ _ _ _ ix0 ez i
    rw [inf_word] at a
    exact real_of_abs_lt_top (z i) a
  · -- |c i| < +∞
    have a : Ideal.cmp .olt (max (c i) (-(c i))) (Ideal.ofBits .f32 0x7F800000#32) = 1#1 :=
      Host.reduce_andi_all _ _ _ _ ix0 ec i
    rw [inf_word] at a
    exact real_of_abs_lt_top (c i) a
  · -- 0 ≤ idx i < 1024 read signed, both bounds at once
    have a : IntOp.andi (IntOp.cmpi .sge (idx i) 0#32) (IntOp.cmpi .slt (idx i) 1024#32) = 1#1 :=
      Host.reduce_andi_all _ _ _ _ ix0 ei i
    obtain ⟨a0, a1⟩ := IntOp.andi_eq_one.1 a
    exact toNat_lt_of_signed (idx i) a0 a1

end Cert.PreDecode

end
-- ==== Proof.RefTargets.lean ====
/-
  The reference's target vectors read at an index. The gathered negatives: entry (n, l, j, k) of the [8, 1024, 100, 128]
  gather is z[n, k, idx[n, l, j]] when every index word is a position in [0, 1024) (the wrap of a negative word and
  the gather's clamp then both do nothing). The targets: the [8, 1024, 101, 128] concatenation holds z[n, k, l] in
  slot 0 and the negatives in slots 1 … 100.
-/
import proofs.«425351_j8435315769539_1_alg».proof.Proof.RefRead
import proofs.«425351_j8435315769539_1_alg».proof.Proof.Spec
import Idealize.ShloMosaic.Lib.StableHlo.Predicate

noncomputable section

open scoped BigOperators

namespace Cert.RefTargets

open Idealize.ShloMosaic Idealize.ShloMosaic.ValueIdx Cert.Spec
open Cert.ReferenceIdeal Cert.ReferenceIdeal.Gen Cert.ReferenceIdeal.ReadP

/-- The wrap of a word that is not negative (select (w < 0) (w + size) w) does nothing. -/
theorem wrap_nonneg {w a : BitVec 32} (hw : w.toNat < 2 ^ 31) :
    Scalar.select (IntOp.cmpi .slt w 0#32) a w = w := by
  have h0 : ¬ IntOp.cmpi .slt w 0#32 = 1#1 := by
    rw [StableHlo.Predicate.slt_iff_toNat hw (by decide)]
    simp
  exact if_neg h0

/-- The batch component of the index pair at (n, l, j) is the word of n: an iota over the batch axis, never negative. -/
theorem batchWord_apply (n : Fin 8) (l : Fin 1024) (j : Fin 100) :
    val_main_v14 (F := Ideal) (ix4 n l j (0 : Fin 1)) = BitVec.ofNat 32 n.val := by
  have hn := n.isLt
  rw [val_main_v14_apply, val_main_v13_apply, val_main_v7_apply, val_main_v4_apply, val_main_v2_apply, val_main_v1_apply,
    val_main_v3_apply, val_main_c_apply]
  show Scalar.select (IntOp.cmpi .slt (BitVec.ofNat 32 n.val) 0#32) _ (BitVec.ofNat 32 n.val) = BitVec.ofNat 32 n.val
  exact wrap_nonneg (by rw [BitVec.toNat_ofNat]; omega)

/-- The position component of the index pair at (n, l, j) is idx[n, l, j] itself when that word is a position. -/
theorem posWord_apply (x2 : IVec Si 32) (hidx : ∀ i, (x2 i).toNat < 1024) (n : Fin 8) (l : Fin 1024) (j : Fin 100) :
    val_main_v15 (F := Ideal) x2 (ix4 n l j (0 : Fin 1)) = x2 (ix3 n l j) := by
  have hw := hidx (ix3 n l j)
  have hi : idx_main_v15 (ix4 n l j (0 : Fin 1)) = ix3 n l j := by
    funext a
    match a with
    | ⟨0, _⟩ => rfl
    | ⟨1, _⟩ => rfl
    | ⟨2, _⟩ => rfl
  rw [val_main_v15_apply, hi, val_main_v12_apply, val_main_v9_apply, val_main_v8_apply, val_main_c_1_apply]
  exact wrap_nonneg (by omega)

/-- Component 0 of the index pair: the batch word. -/
theorem pair_apply_zero (x2 : IVec Si 32) (n : Fin 8) (l : Fin 1024) (j : Fin 100) :
    val_main_v16 (F := Ideal) x2 (ix4 n l j (0 : Fin 2)) = BitVec.ofNat 32 n.val := by
  unfold val_main_v16
  refine (concatenate_pair_apply_left (t := S8x1024x100x2) (s₁ := S8x1024x100x1) (s₂ := S8x1024x100x1) 3 _ _ _
    (ix4 n l j (0 : Fin 2)) rfl (ix4 n l j (0 : Fin 1))
    (fun b => match b with
      | ⟨0, _⟩ => rfl
      | ⟨1, _⟩ => rfl
      | ⟨2, _⟩ => rfl
      | ⟨3, _⟩ => rfl)).trans ?_
  exact batchWord_apply n l j

/-- Component 1 of the index pair: the position word. -/
theorem pair_apply_one (x2 : IVec Si 32) (hidx : ∀ i, (x2 i).toNat < 1024) (n : Fin 8) (l : Fin 1024) (j : Fin 100) :
    val_main_v16 (F := Ideal) x2 (ix4 n l j (1 : Fin 2)) = x2 (ix3 n l j) := by
  unfold val_main_v16
  refine (concatenate_pair_apply_right (t := S8x1024x100x2) (s₁ := S8x1024x100x1) (s₂ := S8x1024x100x1) 3 _ _ _
    (ix4 n l j (1 : Fin 2)) rfl rfl (ix4 n l j (0 : Fin 1))
    (fun b => match b with
      | ⟨0, _⟩ => fun _ => rfl
      | ⟨1, _⟩ => fun _ => rfl
      | ⟨2, _⟩ => fun _ => rfl
      | ⟨3, _⟩ => fun h => absurd rfl h) rfl).trans ?_
  exact posWord_apply x2 hidx n l j

/-- The gather's dimension numbers: operand [8, 1024, 128], index pairs [8, 1024, 100, 2], result [8, 1024, 100, 128]. -/
abbrev gD := gather_S8x1024x128_S8x1024x100x2_S8x1024x100x128_3_01_n_n_01_3_11128

/-- The operand index the gather reads at (n, l, j, k): on the two collapsed axes the pair's components, read signed
    and clamped into the axis; on the channel axis the offset coordinate k. -/
theorem gather_operandIdx (idx : IVec S8x1024x100x2 32) (n : Fin 8) (l : Fin 1024) (j : Fin 100) (k : Fin 128) :
    gD.operandIdx (ix4 n l j k) idx
      = ix3 (⟨min (idx (ix4 n l j (0 : Fin 2))).toInt.toNat 7, by omega⟩ : Fin 8)
            (⟨min (idx (ix4 n l j (1 : Fin 2))).toInt.toNat 1023, by omega⟩ : Fin 1024) k := by
  funext a
  refine Fin.ext ?_
  match a with
  | ⟨0, _⟩ =>
    show gD.start (ix4 n l j k) idx 0 + gD.batchCoord (ix4 n l j k) 0 + gD.offCoord (ix4 n l j k) 0 = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 3) ∈ gD.startIndexMap from List.mem_cons_self)]
    have hsi : gD.siIdx (ix4 n l j k) ⟨List.idxOf (0 : Fin 3) gD.startIndexMap,
        List.idxOf_lt_length_iff.2 List.mem_cons_self⟩ = ix4 n l j (0 : Fin 2) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show gD.start (ix4 n l j k) idx 1 + gD.batchCoord (ix4 n l j k) 1 + gD.offCoord (ix4 n l j k) 1 = _
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (1 : Fin 3) ∈ gD.startIndexMap from List.mem_cons_of_mem _ List.mem_cons_self)]
    have hsi : gD.siIdx (ix4 n l j k) ⟨List.idxOf (1 : Fin 3) gD.startIndexMap,
        List.idxOf_lt_length_iff.2 (List.mem_cons_of_mem _ List.mem_cons_self)⟩ = ix4 n l j (1 : Fin 2) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show gD.start (ix4 n l j k) idx 2 + gD.batchCoord (ix4 n l j k) 2 + gD.offCoord (ix4 n l j k) 2 = k.val
    rw [GatherDims.batchCoord_eq_zero _ _ _ List.not_mem_nil]
    unfold GatherDims.start
    rw [dif_neg (show (2 : Fin 3) ∉ gD.startIndexMap from by decide)]
    simp only [Nat.add_zero, Nat.zero_add]
    rfl

/-- The gathered negatives at (n, l, j, k). -/
theorem negatives_apply (x0 : FVec Ideal Sz .f32) (x2 : IVec Si 32) (hidx : ∀ i, (x2 i).toNat < 1024)
    (n : Fin 8) (l : Fin 1024) (j : Fin 100) (k : Fin 128) :
    val_main_v17 (F := Ideal) x0 x2 (ix4 n l j k) = col x0 n (rowOf (x2 (ix3 n l j))) k := by
  have hn := n.isLt
  have hw := hidx (ix3 n l j)
  show val_main_v0 (F := Ideal) x0 (gD.operandIdx (ix4 n l j k) (val_main_v16 (F := Ideal) x2))
    = x0 (ix3 n k (rowOf (x2 (ix3 n l j))))
  rw [gather_operandIdx, val_main_v0_apply]
  congr 1
  funext a
  refine Fin.ext ?_
  match a with
  | ⟨0, _⟩ =>
    show min (val_main_v16 (F := Ideal) x2 (ix4 n l j (0 : Fin 2))).toInt.toNat 7 = n.val
    rw [pair_apply_zero, StableHlo.Predicate.toInt_ofNat_small _ (by omega), Int.toNat_natCast]
    omega
  | ⟨1, _⟩ => rfl
  | ⟨2, _⟩ =>
    show min (val_main_v16 (F := Ideal) x2 (ix4 n l j (1 : Fin 2))).toInt.toNat 1023 = (rowOf (x2 (ix3 n l j))).val
    rw [pair_apply_one x2 hidx, StableHlo.Predicate.toInt_eq_toNat_of_lt (by omega), Int.toNat_natCast, rowOf_val hw]
    omega

/-- Slot 0 of the targets is z itself at position l. -/
theorem targets_apply_zero (x0 : FVec Ideal Sz .f32) (x2 : IVec Si 32)
    (n : Fin 8) (l : Fin 1024) (k : Fin 128) :
    val_main_v22 (F := Ideal) x0 x2 (ix4 n l (0 : Fin 101) k) = col x0 n l k := by
  unfold val_main_v22
  refine (concatenate_pair_apply_left (t := S8x1024x101x128) (s₁ := S8x1024x1x128) (s₂ := S8x1024x100x128) 2 _ _ _
    (ix4 n l (0 : Fin 101) k) rfl (ix4 n l (0 : Fin 1) k)
    (fun b => match b with
      | ⟨0, _⟩ => rfl
      | ⟨1, _⟩ => rfl
      | ⟨2, _⟩ => rfl
      | ⟨3, _⟩ => rfl)).trans ?_
  rw [val_main_v21_apply, val_main_v0_apply]
  show x0 _ = x0 (ix3 n k l)
  congr 1
  funext a
  match a with
  | ⟨0, _⟩ => rfl
  | ⟨1, _⟩ => rfl
  | ⟨2, _⟩ => rfl

/-- Slot j + 1 of the targets is negative sample j. -/
theorem targets_apply_succ (x0 : FVec Ideal Sz .f32) (x2 : IVec Si 32) (hidx : ∀ i, (x2 i).toNat < 1024)
    (n : Fin 8) (l : Fin 1024) (j : Fin 100) (k : Fin 128) :
    val_main_v22 (F := Ideal) x0 x2 (ix4 n l (⟨j.val + 1, by omega⟩ : Fin 101) k) = col x0 n (rowOf (x2 (ix3 n l j))) k := by
  unfold val_main_v22
  refine (concatenate_pair_apply_right (t := S8x1024x101x128) (s₁ := S8x1024x1x128) (s₂ := S8x1024x100x128) 2 _ _ _
    (ix4 n l (⟨j.val + 1, by omega⟩ : Fin 101) k) rfl rfl (ix4 n l j k)
    (fun b => match b with
      | ⟨0, _⟩ => fun _ => rfl
      | ⟨1, _⟩ => fun _ => rfl
      | ⟨2, _⟩ => fun h => absurd rfl h
      | ⟨3, _⟩ => fun _ => rfl) rfl).trans ?_
  exact negatives_apply x0 x2 hidx n l j k

end Cert.RefTargets

end
-- ==== Proof.RefValue.lean ====
/-
  The reference's result is the specification: entry (1024 n + l, q) is the cosine logit of the context c[n, ·, l + 1]
  with target q, a negative sample equal to the context in every channel giving −∞.
-/
import proofs.«425351_j8435315769539_1_alg».proof.Proof.RefTargets
import Idealize.ShloMosaic.Lib.ReduceAll

noncomputable section

open scoped BigOperators

namespace Cert.RefValue

open Idealize.ShloMosaic Idealize.ShloMosaic.ValueIdx Cert.Spec
open Cert.ReferenceIdeal Cert.ReferenceIdeal.Gen Cert.ReferenceIdeal.ReadP

/-! ## Words -/

/-- The f32 pattern of −∞ is the bottom of the extended reals. -/
theorem ofBits_neg_inf : Ideal.ofBits .f32 0xFF800000#32 = (⊥ : EReal) := by
  simp [Ideal.ofBits, Ideal.ieee]

/-- The ordered-equal comparison of two extended reals is the bit 1 exactly when they are equal. -/
theorem cmp_oeq_eq_one (a b : EReal) : Ideal.cmp .oeq a b = 1#1 ↔ a = b := by
  by_cases h : a = b <;> simp [Ideal.cmp, h]

/-- A left fold by "and", started at 1, over words that are all 1 ends at 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons_self ..), e]
    exact foldl_andi_one f l (fun n hn => h n (List.mem_cons_of_mem _ hn))

/-- An and-reduce whose initial value is 1 is 1 at j exactly when every operand word that reduces into j is 1. -/
theorem reduce_andi_iff {s t u : Shape} {axes : List (Fin s.rank)} (x : s.Idx → BitVec 1) (init : u.Idx → BitVec 1)
    (h : s.ReducesTo axes t) (hu : 0 < u.numel) (hinit : init (Shape.Idx.first hu) = 1#1) (j : t.Idx) :
    Host.reduce IntOp.andi x init h hu j = 1#1 ↔ ∀ i, h.drop i = j → x i = 1#1 := by
  constructor
  · intro e i hi
    exact Host.reduce_andi_eq_one x init h hu j e i hi
  · intro hall
    rw [Host.reduce_eq_foldl, hinit]
    refine foldl_andi_one x _ (fun i hi => ?_)
    rw [List.mem_filter] at hi
    exact hall i (of_decide_eq_true hi.2)

/-- Dropping the channel coordinate of (n, l, j, k) leaves (n, l, j). -/
theorem drop_ix4 (n : Fin 8) (l : Fin 1024) (j : Fin 100) (k : Fin 128) :
    reducesTo_S8x1024x100x128_S8x1024x100_d3.drop (ix4 n l j k) = ix3 n l j := by
  funext b
  match b with
  | ⟨0, _⟩ => rfl
  | ⟨1, _⟩ => rfl
  | ⟨2, _⟩ => rfl

/-- The and-reduce over the 128 channels, started at 1, is 1 at (n, l, j) exactly when the word of every channel is 1. -/
theorem reduce_andi_ix3 (x : S8x1024x100x128.Idx → BitVec 1) (init : S_.Idx → BitVec 1)
    (hinit : init (Shape.Idx.first h_S_) = 1#1) (n : Fin 8) (l : Fin 1024) (j : Fin 100) :
    Host.reduce IntOp.andi x init reducesTo_S8x1024x100x128_S8x1024x100_d3 h_S_ (ix3 n l j) = 1#1
      ↔ ∀ k : Fin 128, x (ix4 n l j k) = 1#1 := by
  rw [reduce_andi_iff x init _ h_S_ hinit]
  constructor
  · intro h k
    exact h _ (drop_ix4 n l j k)
  · intro h i hi
    obtain ⟨a, b, c, d, rfl⟩ : ∃ a b c d, i = ix4 a b c d := ⟨_, _, _, _, eq_ix4 i⟩
    rw [drop_ix4] at hi
    obtain rfl : a = n := congrFun hi 0
    obtain rfl : b = l := congrFun hi 1
    obtain rfl : c = j := congrFun hi 2
    exact h d

/-! ## The context vector -/

/-- The broadcast context at (n, l, ·, k) is c[n, k, l + 1]: a slice from position 1, a transposition, a unit axis. -/
theorem ctx_read (x1 : FVec Ideal Sc .f32) (n : Fin 8) (l : Fin 1024) (z : Fin 1) (k : Fin 128) :
    val_main_v20 (F := Ideal) x1 (ix4 n l z k) = ctx x1 n l k := by
  rw [val_main_v20_apply, val_main_v19_apply, val_main_v18_apply]
  show _ = x1 (ix3 n k ⟨l.val + 1, by omega⟩)
  refine congrArg x1 (funext fun a => Fin.ext ?_)
  match a with
  | ⟨0, _⟩ => rfl
  | ⟨1, _⟩ => rfl
  | ⟨2, _⟩ => show 1 + l.val = l.val + 1; omega

/-! ## The three sums over the channels -/

/-- The inner product of the context with target q. -/
theorem dot_read (x0 : FVec Ideal Sz .f32) (x1 : FVec Ideal Sc .f32) (x2 : IVec Si 32) (n : Fin 8) (l : Fin 1024) (q : Fin 101) :
    val_main_v25 (F := Ideal) x0 x1 x2 (ix3 n l q)
      = ∑ k : Fin 128, ctx x1 n l k * val_main_v22 (F := Ideal) x0 x2 (ix4 n l q k) := by
  rw [val_main_v25_apply, val_main_cst_apply, Ideal.ofBits_def, Ideal.ofBits_zero_f32, zero_add]
  refine Finset.sum_congr rfl fun k _ => ?_
  have e25 : idx_main_v25 (ix3 n l q) k = ix4 n l q k := funext fun a => by
    match a with | ⟨0, _⟩ => rfl | ⟨1, _⟩ => rfl | ⟨2, _⟩ => rfl | ⟨3, _⟩ => rfl
  have e23 : idx_main_v23 (ix4 n l q k) = ix4 n l (⟨0, Nat.one_pos⟩ : Fin 1) k := funext fun a => by
    match a with | ⟨0, _⟩ => rfl | ⟨1, _⟩ => rfl | ⟨2, _⟩ => rfl | ⟨3, _⟩ => rfl
  rw [e25, val_main_v24_apply, Ideal.mulf_def, val_main_v23_apply, e23, ctx_read]

/-- The squared norm of the context. -/
theorem cnorm_read (x1 : FVec Ideal Sc .f32) (n : Fin 8) (l : Fin 1024) (z : Fin 1) :
    val_main_v27 (F := Ideal) x1 (ix3 n l z) = ∑ k : Fin 128, ctx x1 n l k * ctx x1 n l k := by
  rw [val_main_v27_apply, val_main_cst_3_apply, Ideal.ofBits_def, Ideal.ofBits_zero_f32, zero_add]
  refine Finset.sum_congr rfl fun k _ => ?_
  have e27 : idx_main_v27 (ix3 n l z) k = ix4 n l z k := funext fun a => by
    match a with | ⟨0, _⟩ => rfl | ⟨1, _⟩ => rfl | ⟨2, _⟩ => rfl | ⟨3, _⟩ => rfl
  rw [e27, val_main_v26_apply, Ideal.mulf_def, ctx_read]

/-- The squared norm of target q. -/
theorem tnorm_read (x0 : FVec Ideal Sz .f32) (x2 : IVec Si 32) (n : Fin 8) (l : Fin 1024) (q : Fin 101) :
    val_main_v32 (F := Ideal) x0 x2 (ix3 n l q)
      = ∑ k : Fin 128, val_main_v22 (F := Ideal) x0 x2 (ix4 n l q k) * val_main_v22 (F := Ideal) x0 x2 (ix4 n l q k) := by
  rw [val_main_v32_apply, val_main_cst_5_apply, Ideal.ofBits_def, Ideal.ofBits_zero_f32, zero_add]
  refine Finset.sum_congr rfl fun k _ => ?_
  have e32 : idx_main_v32 (ix3 n l q) k = ix4 n l q k := funext fun a => by
    match a with | ⟨0, _⟩ => rfl | ⟨1, _⟩ => rfl | ⟨2, _⟩ => rfl | ⟨3, _⟩ => rfl
  rw [e32, val_main_v31_apply, Ideal.mulf_def]

/-! ## The logits before the mask -/

/-- Entry (n, l, q) of the [8, 1024, 101] logits is the cosine logit of the context with the q-th target vector. -/
theorem logits_read (x0 : FVec Ideal Sz .f32) (x1 : FVec Ideal Sc .f32) (x2 : IVec Si 32) (n : Fin 8) (l : Fin 1024) (q : Fin 101) :
    val_main_v40 (F := Ideal) x0 x1 x2 (ix3 n l q)
      = logit (ctx x1 n l) (fun k => val_main_v22 (F := Ideal) x0 x2 (ix4 n l q k)) := by
  have e36 : idx_main_v36 (ix3 n l q) = ix3 n l (⟨0, Nat.one_pos⟩ : Fin 1) := funext fun a => by
    match a with | ⟨0, _⟩ => rfl | ⟨1, _⟩ => rfl | ⟨2, _⟩ => rfl
  rw [val_main_v40_apply, val_main_v38_apply, val_main_v39_apply, val_main_cst_7_apply, val_main_v37_apply,
    val_main_v36_apply, val_main_v30_apply, val_main_v28_apply, val_main_v29_apply, val_main_cst_4_apply, e36,
    val_main_v35_apply, val_main_v33_apply, val_main_v34_apply, val_main_cst_6_apply,
    dot_read, cnorm_read, tnorm_read]
  rfl

/-! ## The mask -/

/-- The mask bit of negative sample j is 1 exactly when the sampled target equals the context in every channel. -/
theorem mask_eq_one_iff (x0 : FVec Ideal Sz .f32) (x1 : FVec Ideal Sc .f32) (x2 : IVec Si 32)
    (hidx : ∀ i, (x2 i).toNat < 1024) (n : Fin 8) (l : Fin 1024) (j : Fin 100) :
    val_main_v43 (F := Ideal) x0 x1 x2 (ix3 n l j) = 1#1
      ↔ ∀ k, ctx x1 n l k = col x0 n (rowOf (x2 (ix3 n l j))) k := by
  unfold val_main_v43
  rw [reduce_andi_ix3 _ _ (val_main_c_8_apply _) n l j]
  refine forall_congr' fun k => ?_
  have e41 : idx_main_v41 (ix4 n l j k) = ix4 n l (⟨0, Nat.one_pos⟩ : Fin 1) k := funext fun a => by
    match a with | ⟨0, _⟩ => rfl | ⟨1, _⟩ => rfl | ⟨2, _⟩ => rfl | ⟨3, _⟩ => rfl
  rw [val_main_v42_apply, val_main_v41_apply, e41, ctx_read, Cert.RefTargets.negatives_apply x0 x2 hidx,
    Ideal.cmpf_def, cmp_oeq_eq_one]

/-- Negative sample j after the mask: −∞ where the sampled target is the context itself, else its cosine logit. -/
theorem masked_read (x0 : FVec Ideal Sz .f32) (x1 : FVec Ideal Sc .f32) (x2 : IVec Si 32)
    (hidx : ∀ i, (x2 i).toNat < 1024) (n : Fin 8) (l : Fin 1024) (j : Fin 100) :
    val_main_v45 (F := Ideal) x0 x1 x2 (ix3 n l j)
      = maskedLogit (ctx x1 n l) (col x0 n (rowOf (x2 (ix3 n l j)))) := by
  have e44 : idx_main_v44 (ix3 n l j) = ix3 n l (⟨j.val + 1, by omega⟩ : Fin 101) := funext fun a => Fin.ext (by
    match a with
    | ⟨0, _⟩ => rfl
    | ⟨1, _⟩ => rfl
    | ⟨2, _⟩ => show 1 + j.val = j.val + 1; omega)
  have et : (fun k => val_main_v22 (F := Ideal) x0 x2 (ix4 n l (⟨j.val + 1, by omega⟩ : Fin 101) k))
      = col x0 n (rowOf (x2 (ix3 n l j))) :=
    funext fun k => Cert.RefTargets.targets_apply_succ x0 x2 hidx n l j k
  rw [val_main_v45_apply, val_main_call0_v1_apply, val_main_call0_v0_apply, val_main_cst_9_apply, val_main_v44_apply,
    e44, logits_read, et]
  unfold maskedLogit Scalar.select
  by_cases hm : ∀ k, ctx x1 n l k = col x0 n (rowOf (x2 (ix3 n l j))) k
  · have h1 : val_main_v43 (F := Ideal) x0 x1 x2 (ix3 n l j) = (1 : BitVec 1) := (mask_eq_one_iff x0 x1 x2 hidx n l j).2 hm
    rw [if_pos h1, if_pos hm]
    exact ofBits_neg_inf
  · have h1 : ¬val_main_v43 (F := Ideal) x0 x1 x2 (ix3 n l j) = (1 : BitVec 1) :=
      fun h => hm ((mask_eq_one_iff x0 x1 x2 hidx n l j).1 h)
    rw [if_neg h1, if_neg hm]

/-! ## The last concatenation and the reshape -/

/-- Column 0 of the [8, 1024, 101] result is column 0 of the logits. -/
theorem out_zero (x0 : FVec Ideal Sz .f32) (x1 : FVec Ideal Sc .f32) (x2 : IVec Si 32) (n : Fin 8) (l : Fin 1024) :
    val_main_v47 (F := Ideal) x0 x1 x2 (ix3 n l (0 : Fin 101)) = val_main_v40 (F := Ideal) x0 x1 x2 (ix3 n l (0 : Fin 101)) := by
  unfold val_main_v47
  refine (concatenate_pair_apply_left (s₁ := S8x1024x1) (s₂ := S8x1024x100) _ _ _ _ (ix3 n l (0 : Fin 101)) rfl (ix3 n l (0 : Fin 1)) (fun b => ?_)).trans ?_
  · match b with
    | ⟨0, _⟩ => rfl
    | ⟨1, _⟩ => rfl
    | ⟨2, _⟩ => rfl
  · rw [val_main_v46_apply]
    refine congrArg _ (funext fun a => Fin.ext ?_)
    match a with
    | ⟨0, _⟩ => rfl
    | ⟨1, _⟩ => rfl
    | ⟨2, _⟩ => rfl

/-- Column q ≥ 1 of the [8, 1024, 101] result is masked negative sample q − 1. -/
theorem out_succ (x0 : FVec Ideal Sz .f32) (x1 : FVec Ideal Sc .f32) (x2 : IVec Si 32) (n : Fin 8) (l : Fin 1024)
    (q : Fin 101) (hq : ¬q.val = 0) :
    val_main_v47 (F := Ideal) x0 x1 x2 (ix3 n l q)
      = val_main_v45 (F := Ideal) x0 x1 x2 (ix3 n l (⟨q.val - 1, by have := q.isLt; omega⟩ : Fin 100)) := by
  unfold val_main_v47
  refine concatenate_pair_apply_right (s₁ := S8x1024x1) (s₂ := S8x1024x100) _ _ _ _ (ix3 n l q) rfl rfl
    (ix3 n l (⟨q.val - 1, by have := q.isLt; omega⟩ : Fin 100)) (fun b hb => ?_) ?_
  · match b, hb with
    | ⟨0, _⟩, _ => rfl
    | ⟨1, _⟩, _ => rfl
    | ⟨2, _⟩, hb => exact absurd rfl hb
  · show q.val - 1 + 1 = q.val
    omega

/-- The reshape [8, 1024, 101] → [8192, 101] reads row 1024 n + l, column q at (n, l, q). -/
theorem reshape_read (x0 : FVec Ideal Sz .f32) (x1 : FVec Ideal Sc .f32) (x2 : IVec Si 32) (n : Fin 8) (l : Fin 1024) (q : Fin 101) :
    val_main_v48 (F := Ideal) x0 x1 x2 (ix2 (⟨1024 * n.val + l.val, by omega⟩ : Fin 8192) q)
      = val_main_v47 (F := Ideal) x0 x1 x2 (ix3 n l q) := by
  rw [val_main_v48_apply]
  refine congrArg _ (funext fun a => Fin.ext ?_)
  have hn := n.isLt
  have hl := l.isLt
  have hq := q.isLt
  match a with
  | ⟨0, _⟩ => show ((1024 * n.val + l.val) * 101 + q.val) / 103424 = n.val; omega
  | ⟨1, _⟩ => show ((1024 * n.val + l.val) * 101 + q.val) / 101 % 1024 = l.val; omega
  | ⟨2, _⟩ => show ((1024 * n.val + l.val) * 101 + q.val) % 101 = q.val; omega

/-- The reference's result at row 1024 n + l and column q is the specification's entry (n, l, q). -/
theorem ref_entry (x0 : FVec Ideal Sz .f32) (x1 : FVec Ideal Sc .f32) (x2 : IVec Si 32) (hidx : ∀ i, (x2 i).toNat < 1024)
    (n : Fin 8) (l : Fin 1024) (q : Fin 101) :
    val_main_v48 (F := Ideal) x0 x1 x2 (ix2 (⟨1024 * n.val + l.val, by omega⟩ : Fin 8192) q) = entry x0 x1 x2 n l q := by
  rw [reshape_read]
  unfold entry
  by_cases hq : q.val = 0
  · rw [dif_pos hq]
    obtain rfl : q = 0 := Fin.ext hq
    rw [out_zero, logits_read]
    exact congrArg (logit (ctx x1 n l)) (funext fun k => Cert.RefTargets.targets_apply_zero x0 x2 n l k)
  · rw [dif_neg hq, out_succ x0 x1 x2 n l q hq, masked_read x0 x1 x2 hidx]

/-- The reference's last stage is G. -/
theorem ref_eq (x0 : FVec Ideal Sz .f32) (x1 : FVec Ideal Sc .f32) (x2 : IVec Si 32) (hidx : ∀ i, (x2 i).toNat < 1024) :
    val_main_v48 (F := Ideal) x0 x1 x2 = G x0 x1 x2 := by
  refine funext fun i => ?_
  have h0 : (i 0).val < 8192 := idx2_lt0 i
  have key := (ref_entry x0 x1 x2 hidx ⟨(i 0).val / 1024, by omega⟩ ⟨(i 0).val % 1024, Nat.mod_lt _ (by decide)⟩ (i 1)).trans
    (G_apply x0 x1 x2 ⟨(i 0).val / 1024, by omega⟩ ⟨(i 0).val % 1024, Nat.mod_lt _ (by decide)⟩ (i 1)).symm
  have ei : i = ix2 (⟨1024 * ((i 0).val / 1024) + (i 0).val % 1024, by omega⟩ : Fin 8192) (i 1) := by
    funext a
    match a with
    | ⟨0, _⟩ => exact Fin.ext (by show (i 0).val = 1024 * ((i 0).val / 1024) + (i 0).val % 1024; omega)
    | ⟨1, _⟩ => rfl
  rw [ei]
  exact key

end Cert.RefValue

end
-- ==== Proof.RefStages.lean ====
/-
  The reference program's run, read stretch by stretch. Its 63 host operations are cut into four consecutive
  stretches: through the gathered negatives; through the concatenated targets; through the logits; and the mask with
  the final layout. After each stretch the buffers later stretches read hold the corresponding stage's value as a
  function of the three arguments, and after the last the result buffer holds the last stage. The contents after a
  list of operations is a left fold, so the contents after a concatenation is the second stretch's fold over the
  first's.
-/
import proofs.«425351_j8435315769539_1_alg».proof.Proof.RefRead

set_option maxRecDepth 8192

noncomputable section

namespace Cert.RefStages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The contents after two stretches run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operations 1 … 22: the transposed z, the index pairs, the gather. -/
abbrev opsA : List (HloOp τ sig (Elt F)) :=
  [ unary main_arg0 main_v0 ((transpose S8x1024x128 [0, 2, 1] · transposes_S8x128x1024_S8x1024x128_0_2_1) : (⟨S8x128x1024, .f32⟩ : BufTy).Contents (Elt F) → (⟨S8x1024x128, .f32⟩ : BufTy).Contents (Elt F)),
    nullary main_v1 (iotaInDim S8 32 0),
    unary main_v1 main_v2 (broadcastInDim S8x1x1 ![0] bcast_S8_S8x1x1_0 : (⟨S8, .i32⟩ : BufTy).Contents (Elt F) → (⟨S8x1x1, .i32⟩ : BufTy).Contents (Elt F)),
    nullary main_c (constantI S_ 32 0#32),
    unary main_c main_v3 (broadcastInDim S8x1x1 ![] bcast_S_S8x1x1 : (⟨S_, .i32⟩ : BufTy).Contents (Elt F) → (⟨S8x1x1, .i32⟩ : BufTy).Contents (Elt F)),
    binary main_v2 main_v3 main_v4 (cmpi .slt : (⟨S8x1x1, .i32⟩ : BufTy).Contents (Elt F) → (⟨S8x1x1, .i32⟩ : BufTy).Contents (Elt F) → (⟨S8x1x1, .i1⟩ : BufTy).Contents (Elt F)),
    nullary main_c_0 (constantI S_ 32 8#32),
    unary main_c_0 main_v5 (broadcastInDim S8x1x1 ![] bcast_S_S8x1x1 : (⟨S_, .i32⟩ : BufTy).Contents (Elt F) → (⟨S8x1x1, .i32⟩ : BufTy).Contents (Elt F)),
    binary main_v2 main_v5 main_v6 (addi : (⟨S8x1x1, .i32⟩ : BufTy).Contents (Elt F) → (⟨S8x1x1, .i32⟩ : BufTy).Contents (Elt F) → (⟨S8x1x1, .i32⟩ : BufTy).Contents (Elt F)),
    ternary main_v4 main_v6 main_v2 main_v7 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_c_1 (constantI S_ 32 0#32),
    unary main_c_1 main_v8 (broadcastInDim S8x1024x100 ![] bcast_S_S8x1024x100 : (⟨S_, .i32⟩ : BufTy).Contents (Elt F) → (⟨S8x1024x100, .i32⟩ : BufTy).Contents (Elt F)),
    binary main_arg2 main_v8 main_v9 (cmpi .slt : (⟨S8x1024x100, .i32⟩ : BufTy).Contents (Elt F) → (⟨S8x1024x100, .i32⟩ : BufTy).Contents (Elt F) → (⟨S8x1024x100, .i1⟩ : BufTy).Contents (Elt F)),
    nullary main_c_2 (constantI S_ 32 1024#32),
    unary main_c_2 main_v10 (broadcastInDim S8x1024x100 ![] bcast_S_S8x1024x100 : (⟨S_, .i32⟩ : BufTy).Contents (Elt F) → (⟨S8x1024x100, .i32⟩ : BufTy).Contents (Elt F)),
    binary main_arg2 main_v10 main_v11 (addi : (⟨S8x1024x100, .i32⟩ : BufTy).Contents (Elt F) → (⟨S8x1024x100, .i32⟩ : BufTy).Contents (Elt F) → (⟨S8x1024x100, .i32⟩ : BufTy).Contents (Elt F)),
    ternary main_v9 main_v11 main_arg2 main_v12 (select : (⟨S8x1024x100, .i1⟩ : BufTy).Contents (Elt F) → (⟨S8x1024x100, .i32⟩ : BufTy).Contents (Elt F) → (⟨S8x1024x100, .i32⟩ : BufTy).Contents (Elt F) → (⟨S8x1024x100, .i32⟩ : BufTy).Contents (Elt F)),
    unary main_v7 main_v13 (broadcastInDim S8x1024x100 ![0, 1, 2] bcast_S8x1x1_S8x1024x100_0_1_2 : (⟨S8x1x1, .i32⟩ : BufTy).Contents (Elt F) → (⟨S8x1024x100, .i32⟩ : BufTy).Contents (Elt F)),
    unary main_v13 main_v14 (broadcastInDim S8x1024x100x1 ![0, 1, 2] bcast_S8x1024x100_S8x1024x100x1_0_1_2 : (⟨S8x1024x100, .i32⟩ : BufTy).Contents (Elt F) → (⟨S8x1024x100x1, .i32⟩ : BufTy).Contents (Elt F)),
    unary main_v12 main_v15 (broadcastInDim S8x1024x100x1 ![0, 1, 2] bcast_S8x1024x100_S8x1024x100x1_0_1_2 : (⟨S8x1024x100, .i32⟩ : BufTy).Contents (Elt F) → (⟨S8x1024x100x1, .i32⟩ : BufTy).Contents (Elt F)),
    binary main_v14 main_v15 main_v16 ((fun a b => concatenate S8x1024x100x2 3 [⟨S8x1024x100x1, a⟩, ⟨S8x1024x100x1, b⟩] concatenates_S8x1024x100x1_S8x1024x100x1_S8x1024x100x2_d3) : (⟨S8x1024x100x1, .i32⟩ : BufTy).Contents (Elt F) → (⟨S8x1024x100x1, .i32⟩ : BufTy).Contents (Elt F) → (⟨S8x1024x100x2, .i32⟩ : BufTy).Contents (Elt F)),
    binary main_v0 main_v16 main_v17 ((fun x i => Host.gather gather_S8x1024x128_S8x1024x100x2_S8x1024x100x128_3_01_n_n_01_3_11128 x i) : (⟨S8x1024x128, .f32⟩ : BufTy).Contents (Elt F) → (⟨S8x1024x100x2, .i32⟩ : BufTy).Contents (Elt F) → (⟨S8x1024x100x128, .f32⟩ : BufTy).Contents (Elt F)) ]

/-- Operations 23 … 27: the context, the targets. -/
abbrev opsB : List (HloOp τ sig (Elt F)) :=
  [ unary main_arg1 main_v18 ((extractStridedSlice S8x128x1024 ![0, 0, 1] · slices_S8x128x1025_S8x128x1024_0_0_1) : (⟨S8x128x1025, .f32⟩ : BufTy).Contents (Elt F) → (⟨S8x128x1024, .f32⟩ : BufTy).Contents (Elt F)),
    unary main_v18 main_v19 ((transpose S8x1024x128 [0, 2, 1] · transposes_S8x128x1024_S8x1024x128_0_2_1) : (⟨S8x128x1024, .f32⟩ : BufTy).Contents (Elt F) → (⟨S8x1024x128, .f32⟩ : BufTy).Contents (Elt F)),
    unary main_v19 main_v20 (broadcastInDim S8x1024x1x128 ![0, 1, 3] bcast_S8x1024x128_S8x1024x1x128_0_1_3 : (⟨S8x1024x128, .f32⟩ : BufTy).Contents (Elt F) → (⟨S8x1024x1x128, .f32⟩ : BufTy).Contents (Elt F)),
    unary main_v0 main_v21 (broadcastInDim S8x1024x1x128 ![0, 1, 3] bcast_S8x1024x128_S8x1024x1x128_0_1_3 : (⟨S8x1024x128, .f32⟩ : BufTy).Contents (Elt F) → (⟨S8x1024x1x128, .f32⟩ : BufTy).Contents (Elt F)),
    binary main_v21 main_v17 main_v22 ((fun a b => concatenate S8x1024x101x128 2 [⟨S8x1024x1x128, a⟩, ⟨S8x1024x100x128, b⟩] concatenates_S8x1024x1x128_S8x1024x100x128_S8x1024x101x128_d2) : (⟨S8x1024x1x128, .f32⟩ : BufTy).Contents (Elt F) → (⟨S8x1024x100x128, .f32⟩ : BufTy).Contents (Elt F) → (⟨S8x1024x101x128, .f32⟩ : BufTy).Contents (Elt F)) ]

/-- Operations 28 … 51: the products, sums, norms and quotients. -/
abbrev opsC : List (HloOp τ sig (Elt F)) :=
  [ unary main_v20 main_v23 (broadcastInDim S8x1024x101x128 ![0, 1, 2, 3] bcast_S8x1024x1x128_S8x1024x101x128_0_1_2_3 : (⟨S8x1024x1x128, .f32⟩ : BufTy).Contents (Elt F) → (⟨S8x1024x101x128, .f32⟩ : BufTy).Contents (Elt F)),
    binary main_v23 main_v22 main_v24 (mulf : (⟨S8x1024x101x128, .f32⟩ : BufTy).Contents (Elt F) → (⟨S8x1024x101x128, .f32⟩ : BufTy).Contents (Elt F) → (⟨S8x1024x101x128, .f32⟩ : BufTy).Contents (Elt F)),
    nullary main_cst (constant S_ .f32 0x00000000#32),
    binary main_v24 main_cst main_v25 ((fun x v => Host.reduceAdd x v reducesTo_S8x1024x101x128_S8x1024x101_d3 h_S_) : (⟨S8x1024x101x128, .f32⟩ : BufTy).Contents (Elt F) → (⟨S_, .f32⟩ : BufTy).Contents (Elt F) → (⟨S8x1024x101, .f32⟩ : BufTy).Contents (Elt F)),
    binary main_v20 main_v20 main_v26 (mulf : (⟨S8x1024x1x128, .f32⟩ : BufTy).Contents (Elt F) → (⟨S8x1024x1x128, .f32⟩ : BufTy).Contents (Elt F) → (⟨S8x1024x1x128, .f32⟩ : BufTy).Contents (Elt F)),
    nullary main_cst_3 (constant S_ .f32 0x00000000#32),
    binary main_v26 main_cst_3 main_v27 ((fun x v => Host.reduceAdd x v reducesTo_S8x1024x1x128_S8x1024x1_d3 h_S_) : (⟨S8x1024x1x128, .f32⟩ : BufTy).Contents (Elt F) → (⟨S_, .f32⟩ : BufTy).Contents (Elt F) → (⟨S8x1024x1, .f32⟩ : BufTy).Contents (Elt F)),
    unary main_v27 main_v28 (Host.sqrt : (⟨S8x1024x1, .f32⟩ : BufTy).Contents (Elt F) → (⟨S8x1024x1, .f32⟩ : BufTy).Contents (Elt F)),
    nullary main_cst_4 (constant S_ .f32 0x322BCC77#32),
    unary main_cst_4 main_v29 (broadcastInDim S8x1024x1 ![] bcast_S_S8x1024x1 : (⟨S_, .f32⟩ : BufTy).Contents (Elt F) → (⟨S8x1024x1, .f32⟩ : BufTy).Contents (Elt F)),
    binary main_v28 main_v29 main_v30 (maximumf : (⟨S8x1024x1, .f32⟩ : BufTy).Contents (Elt F) → (⟨S8x1024x1, .f32⟩ : BufTy).Contents (Elt F) → (⟨S8x1024x1, .f32⟩ : BufTy).Contents (Elt F)),
    binary main_v22 main_v22 main_v31 (mulf : (⟨S8x1024x101x128, .f32⟩ : BufTy).Contents (Elt F) → (⟨S8x1024x101x128, .f32⟩ : BufTy).Contents (Elt F) → (⟨S8x1024x101x128, .f32⟩ : BufTy).Contents (Elt F)),
    nullary main_cst_5 (constant S_ .f32 0x00000000#32),
    binary main_v31 main_cst_5 main_v32 ((fun x v => Host.reduceAdd x v reducesTo_S8x1024x101x128_S8x1024x101_d3 h_S_) : (⟨S8x1024x101x128, .f32⟩ : BufTy).Contents (Elt F) → (⟨S_, .f32⟩ : BufTy).Contents (Elt F) → (⟨S8x1024x101, .f32⟩ : BufTy).Contents (Elt F)),
    unary main_v32 main_v33 (Host.sqrt : (⟨S8x1024x101, .f32⟩ : BufTy).Contents (Elt F) → (⟨S8x1024x101, .f32⟩ : BufTy).Contents (Elt F)),
    nullary main_cst_6 (constant S_ .f32 0x322BCC77#32),
    unary main_cst_6 main_v34 (broadcastInDim S8x1024x101 ![] bcast_S_S8x1024x101 : (⟨S_, .f32⟩ : BufTy).Contents (Elt F) → (⟨S8x1024x101, .f32⟩ : BufTy).Contents (Elt F)),
    binary main_v33 main_v34 main_v35 (maximumf : (⟨S8x1024x101, .f32⟩ : BufTy).Contents (Elt F) → (⟨S8x1024x101, .f32⟩ : BufTy).Contents (Elt F) → (⟨S8x1024x101, .f32⟩ : BufTy).Contents (Elt F)),
    unary main_v30 main_v36 (broadcastInDim S8x1024x101 ![0, 1, 2] bcast_S8x1024x1_S8x1024x101_0_1_2 : (⟨S8x1024x1, .f32⟩ : BufTy).Contents (Elt F) → (⟨S8x1024x101, .f32⟩ : BufTy).Contents (Elt F)),
    binary main_v36 main_v35 main_v37 (mulf : (⟨S8x1024x101, .f32⟩ : BufTy).Contents (Elt F) → (⟨S8x1024x101, .f32⟩ : BufTy).Contents (Elt F) → (⟨S8x1024x101, .f32⟩ : BufTy).Contents (Elt F)),
    binary main_v25 main_v37 main_v38 (Host.divf : (⟨S8x1024x101, .f32⟩ : BufTy).Contents (Elt F) → (⟨S8x1024x101, .f32⟩ : BufTy).Contents (Elt F) → (⟨S8x1024x101, .f32⟩ : BufTy).Contents (Elt F)),
    nullary main_cst_7 (constant S_ .f32 0x3F000000#32),
    unary main_cst_7 main_v39 (broadcastInDim S8x1024x101 ![] bcast_S_S8x1024x101 : (⟨S_, .f32⟩ : BufTy).Contents (Elt F) → (⟨S8x1024x101, .f32⟩ : BufTy).Contents (Elt F)),
    binary main_v38 main_v39 main_v40 (Host.divf : (⟨S8x1024x101, .f32⟩ : BufTy).Contents (Elt F) → (⟨S8x1024x101, .f32⟩ : BufTy).Contents (Elt F) → (⟨S8x1024x101, .f32⟩ : BufTy).Contents (Elt F)) ]

/-- Operations 52 … 57: the channelwise equality test, its reduction by and, the negatives' logits, the fill. -/
abbrev opsD1 : List (HloOp τ sig (Elt F)) :=
  [ unary main_v20 main_v41 (broadcastInDim S8x1024x100x128 ![0, 1, 2, 3] bcast_S8x1024x1x128_S8x1024x100x128_0_1_2_3 : (⟨S8x1024x1x128, .f32⟩ : BufTy).Contents (Elt F) → (⟨S8x1024x100x128, .f32⟩ : BufTy).Contents (Elt F)),
    binary main_v41 main_v17 main_v42 (cmpf .oeq : (⟨S8x1024x100x128, .f32⟩ : BufTy).Contents (Elt F) → (⟨S8x1024x100x128, .f32⟩ : BufTy).Contents (Elt F) → (⟨S8x1024x100x128, .i1⟩ : BufTy).Contents (Elt F)),
    nullary main_c_8 (constantI S_ 1 1#1),
    binary main_v42 main_c_8 main_v43 ((fun x v => Host.reduce IntOp.andi x v reducesTo_S8x1024x100x128_S8x1024x100_d3 h_S_) : (⟨S8x1024x100x128, .i1⟩ : BufTy).Contents (Elt F) → (⟨S_, .i1⟩ : BufTy).Contents (Elt F) → (⟨S8x1024x100, .i1⟩ : BufTy).Contents (Elt F)),
    unary main_v40 main_v44 ((extractStridedSlice S8x1024x100 ![0, 0, 1] · slices_S8x1024x101_S8x1024x100_0_0_1) : (⟨S8x1024x101, .f32⟩ : BufTy).Contents (Elt F) → (⟨S8x1024x100, .f32⟩ : BufTy).Contents (Elt F)),
    nullary main_cst_9 (constant S_ .f32 0xFF800000#32) ]

/-- Operations 58 … 60: the select between the fill and the logits (a called function's three operations). -/
abbrev opsD2 : List (HloOp τ sig (Elt F)) :=
  [ TRef.unary (TRef.of (T := ⟨S_, .f32⟩) main_cst_9) (TRef.of (T := ⟨S_, .f32⟩) main_call0_v0) id,
    TRef.unary (TRef.of (T := ⟨S_, .f32⟩) main_call0_v0) (TRef.of (T := ⟨S8x1024x100, .f32⟩) main_call0_v1) (broadcastInDim S8x1024x100 ![] bcast_S_S8x1024x100),
    TRef.ternary (TRef.of (T := ⟨S8x1024x100, .i1⟩) main_v43) (TRef.of (T := ⟨S8x1024x100, .f32⟩) main_call0_v1) (TRef.of (T := ⟨S8x1024x100, .f32⟩) main_v44) (TRef.of (T := ⟨S8x1024x100, .f32⟩) main_v45) select ]

/-- Operations 61 … 63: the self logit, the final concatenation, the reshape. -/
abbrev opsD3 : List (HloOp τ sig (Elt F)) :=
  [ unary main_v40 main_v46 ((extractStridedSlice S8x1024x1 ![0, 0, 0] · slices_S8x1024x101_S8x1024x1_0_0_0) : (⟨S8x1024x101, .f32⟩ : BufTy).Contents (Elt F) → (⟨S8x1024x1, .f32⟩ : BufTy).Contents (Elt F)),
    binary main_v46 main_v45 main_v47 ((fun a b => concatenate S8x1024x101 2 [⟨S8x1024x1, a⟩, ⟨S8x1024x100, b⟩] concatenates_S8x1024x1_S8x1024x100_S8x1024x101_d2) : (⟨S8x1024x1, .f32⟩ : BufTy).Contents (Elt F) → (⟨S8x1024x100, .f32⟩ : BufTy).Contents (Elt F) → (⟨S8x1024x101, .f32⟩ : BufTy).Contents (Elt F)),
    reshape main_v47 main_v48 rfl shapeCasts_S8x1024x101_S8192x101 ]

theorem ops_eq : (Cert.ReferenceIdeal.ValueP.ops : List (HloOp τ sig (Elt F))) = opsA ++ (opsB ++ (opsC ++ (opsD1 ++ (opsD2 ++ opsD3)))) := rfl

/-! ## The four stretches -/

set_option maxHeartbeats 4000000 in
theorem stretchA_v0 (x0 : (⟨S8x128x1024, .f32⟩ : BufTy).Contents (Elt F)) (V : Valuation τ sig (Elt F)) (h0 : V (Proc.devRef .tc main_arg0) = x0) :
    after opsA V (Proc.devRef .tc main_v0) = val_main_v0 (F := F) x0 := by
  subst h0
  after_results_simp
  rfl

set_option maxHeartbeats 4000000 in
theorem stretchA_v17 (x0 : (⟨S8x128x1024, .f32⟩ : BufTy).Contents (Elt F)) (x2 : (⟨S8x1024x100, .i32⟩ : BufTy).Contents (Elt F)) (V : Valuation τ sig (Elt F)) (h0 : V (Proc.devRef .tc main_arg0) = x0) (h2 : V (Proc.devRef .tc main_arg2) = x2) :
    after opsA V (Proc.devRef .tc main_v17) = val_main_v17 (F := F) x0 x2 := by
  subst h0 h2
  after_results_simp
  rfl

set_option maxHeartbeats 4000000 in
theorem stretchA_arg1 (x1 : (⟨S8x128x1025, .f32⟩ : BufTy).Contents (Elt F)) (V : Valuation τ sig (Elt F)) (h1 : V (Proc.devRef .tc main_arg1) = x1) :
    after opsA V (Proc.devRef .tc main_arg1) = x1 := by
  subst h1
  after_results_simp

set_option maxHeartbeats 4000000 in
theorem stretchB_v20 (x1 : (⟨S8x128x1025, .f32⟩ : BufTy).Contents (Elt F)) (V : Valuation τ sig (Elt F)) (h1 : V (Proc.devRef .tc main_arg1) = x1) :
    after opsB V (Proc.devRef .tc main_v20) = val_main_v20 (F := F) x1 := by
  subst h1
  after_results_simp
  rfl

set_option maxHeartbeats 4000000 in
theorem stretchB_v22 (x0 : (⟨S8x128x1024, .f32⟩ : BufTy).Contents (Elt F)) (x2 : (⟨S8x1024x100, .i32⟩ : BufTy).Contents (Elt F)) (V : Valuation τ sig (Elt F)) (h0 : V (Proc.devRef .tc main_v0) = val_main_v0 (F := F) x0)
    (h17 : V (Proc.devRef .tc main_v17) = val_main_v17 (F := F) x0 x2) :
    after opsB V (Proc.devRef .tc main_v22) = val_main_v22 (F := F) x0 x2 := by
  after_results
  rw [h0, h17]
  rfl

set_option maxHeartbeats 4000000 in
theorem stretchB_v17 (x0 : (⟨S8x128x1024, .f32⟩ : BufTy).Contents (Elt F)) (x2 : (⟨S8x1024x100, .i32⟩ : BufTy).Contents (Elt F)) (V : Valuation τ sig (Elt F)) (h17 : V (Proc.devRef .tc main_v17) = val_main_v17 (F := F) x0 x2) :
    after opsB V (Proc.devRef .tc main_v17) = val_main_v17 (F := F) x0 x2 := by
  after_results_simp
  exact h17

set_option maxHeartbeats 4000000 in
theorem stretchC_v40 (x0 : (⟨S8x128x1024, .f32⟩ : BufTy).Contents (Elt F)) (x1 : (⟨S8x128x1025, .f32⟩ : BufTy).Contents (Elt F)) (x2 : (⟨S8x1024x100, .i32⟩ : BufTy).Contents (Elt F)) (V : Valuation τ sig (Elt F)) (h20 : V (Proc.devRef .tc main_v20) = val_main_v20 (F := F) x1)
    (h22 : V (Proc.devRef .tc main_v22) = val_main_v22 (F := F) x0 x2) :
    after opsC V (Proc.devRef .tc main_v40) = val_main_v40 (F := F) x0 x1 x2 := by
  after_results_simp
  rw [h20, h22]
  rfl

set_option maxHeartbeats 4000000 in
theorem stretchC_v20 (x1 : (⟨S8x128x1025, .f32⟩ : BufTy).Contents (Elt F)) (V : Valuation τ sig (Elt F)) (h20 : V (Proc.devRef .tc main_v20) = val_main_v20 (F := F) x1) :
    after opsC V (Proc.devRef .tc main_v20) = val_main_v20 (F := F) x1 := by
  after_results_simp
  exact h20

set_option maxHeartbeats 4000000 in
theorem stretchC_v17 (x0 : (⟨S8x128x1024, .f32⟩ : BufTy).Contents (Elt F)) (x2 : (⟨S8x1024x100, .i32⟩ : BufTy).Contents (Elt F)) (V : Valuation τ sig (Elt F)) (h17 : V (Proc.devRef .tc main_v17) = val_main_v17 (F := F) x0 x2) :
    after opsC V (Proc.devRef .tc main_v17) = val_main_v17 (F := F) x0 x2 := by
  after_results_simp
  exact h17

set_option maxHeartbeats 4000000 in
theorem stretchC_v40' (x0 : (⟨S8x128x1024, .f32⟩ : BufTy).Contents (Elt F)) (x1 : (⟨S8x128x1025, .f32⟩ : BufTy).Contents (Elt F)) (x2 : (⟨S8x1024x100, .i32⟩ : BufTy).Contents (Elt F)) (V : Valuation τ sig (Elt F)) (h40 : V (Proc.devRef .tc main_v40) = val_main_v40 (F := F) x0 x1 x2) :
    after opsD1 V (Proc.devRef .tc main_v40) = val_main_v40 (F := F) x0 x1 x2 := by
  after_results_simp
  exact h40

set_option maxHeartbeats 4000000 in
theorem stretchD1_v43 (x0 : (⟨S8x128x1024, .f32⟩ : BufTy).Contents (Elt F)) (x1 : (⟨S8x128x1025, .f32⟩ : BufTy).Contents (Elt F)) (x2 : (⟨S8x1024x100, .i32⟩ : BufTy).Contents (Elt F)) (V : Valuation τ sig (Elt F)) (h20 : V (Proc.devRef .tc main_v20) = val_main_v20 (F := F) x1)
    (h17 : V (Proc.devRef .tc main_v17) = val_main_v17 (F := F) x0 x2) :
    after opsD1 V (Proc.devRef .tc main_v43) = val_main_v43 (F := F) x0 x1 x2 := by
  after_results_simp
  rw [h20, h17]
  rfl

set_option maxHeartbeats 4000000 in
theorem stretchD1_v44 (x0 : (⟨S8x128x1024, .f32⟩ : BufTy).Contents (Elt F)) (x1 : (⟨S8x128x1025, .f32⟩ : BufTy).Contents (Elt F)) (x2 : (⟨S8x1024x100, .i32⟩ : BufTy).Contents (Elt F)) (V : Valuation τ sig (Elt F)) (h40 : V (Proc.devRef .tc main_v40) = val_main_v40 (F := F) x0 x1 x2) :
    after opsD1 V (Proc.devRef .tc main_v44) = val_main_v44 (F := F) x0 x1 x2 := by
  after_results_simp
  rw [h40]
  rfl

set_option maxHeartbeats 4000000 in
theorem stretchD1_cst (V : Valuation τ sig (Elt F)) :
    after opsD1 V (Proc.devRef .tc main_cst_9) = val_main_cst_9 (F := F) := by
  after_results_simp
  rfl

set_option maxHeartbeats 4000000 in
theorem stretchD2_v45 (x0 : (⟨S8x128x1024, .f32⟩ : BufTy).Contents (Elt F)) (x1 : (⟨S8x128x1025, .f32⟩ : BufTy).Contents (Elt F)) (x2 : (⟨S8x1024x100, .i32⟩ : BufTy).Contents (Elt F)) (V : Valuation τ sig (Elt F)) (h43 : V (Proc.devRef .tc main_v43) = val_main_v43 (F := F) x0 x1 x2)
    (h44 : V (Proc.devRef .tc main_v44) = val_main_v44 (F := F) x0 x1 x2)
    (hcst : V (Proc.devRef .tc main_cst_9) = val_main_cst_9 (F := F)) :
    after opsD2 V (Proc.devRef .tc main_v45) = val_main_v45 (F := F) x0 x1 x2 := by
  after_results_simp
  simp only [TRef.ofBuf, TRef.toBuf, cast_eq]
  rw [h43, h44, hcst]
  rfl

set_option maxHeartbeats 4000000 in
theorem stretchD2_v40 (x0 : (⟨S8x128x1024, .f32⟩ : BufTy).Contents (Elt F)) (x1 : (⟨S8x128x1025, .f32⟩ : BufTy).Contents (Elt F)) (x2 : (⟨S8x1024x100, .i32⟩ : BufTy).Contents (Elt F)) (V : Valuation τ sig (Elt F)) (h40 : V (Proc.devRef .tc main_v40) = val_main_v40 (F := F) x0 x1 x2) :
    after opsD2 V (Proc.devRef .tc main_v40) = val_main_v40 (F := F) x0 x1 x2 := by
  after_results_simp
  exact h40

set_option maxHeartbeats 4000000 in
theorem stretchD3_v48 (x0 : (⟨S8x128x1024, .f32⟩ : BufTy).Contents (Elt F)) (x1 : (⟨S8x128x1025, .f32⟩ : BufTy).Contents (Elt F)) (x2 : (⟨S8x1024x100, .i32⟩ : BufTy).Contents (Elt F)) (V : Valuation τ sig (Elt F)) (h40 : V (Proc.devRef .tc main_v40) = val_main_v40 (F := F) x0 x1 x2)
    (h45 : V (Proc.devRef .tc main_v45) = val_main_v45 (F := F) x0 x1 x2) :
    after opsD3 V (Proc.devRef .tc main_v48) = val_main_v48 (F := F) x0 x1 x2 := by
  after_results
  rw [h40, h45]
  rfl

/-! ## The whole run -/

/-- After all 63 operations the result buffer holds the last stage of the three arguments. -/
theorem after_ops (V : Valuation τ sig (Elt F)) :
    after (Cert.ReferenceIdeal.ValueP.ops (F := F)) V (Proc.devRef .tc main_v48)
      = val_main_v48 (F := F) (V (Proc.devRef .tc main_arg0)) (V (Proc.devRef .tc main_arg1)) (V (Proc.devRef .tc main_arg2)) := by
  rw [ops_eq, after_append, after_append, after_append, after_append, after_append]
  have a0 := stretchA_v0 _ V rfl
  have a17 := stretchA_v17 _ _ V rfl rfl
  have a1 := stretchA_arg1 _ V rfl
  have b20 := stretchB_v20 _ _ a1
  have b22 := stretchB_v22 _ _ _ a0 a17
  have b17 := stretchB_v17 _ _ _ a17
  have c40 := stretchC_v40 _ _ _ _ b20 b22
  have c20 := stretchC_v20 _ _ b20
  have c17 := stretchC_v17 _ _ _ b17
  have d40 := stretchC_v40' _ _ _ _ c40
  have d43 := stretchD1_v43 _ _ _ _ c20 c17
  have d44 := stretchD1_v44 _ _ _ _ c40
  have dcst := stretchD1_cst (F := F) (after opsC (after opsB (after opsA V)))
  have e45 := stretchD2_v45 _ _ _ _ d43 d44 dcst
  have e40 := stretchD2_v40 _ _ _ _ d40
  exact stretchD3_v48 _ _ _ _ e40 e45

set_option maxRecDepth 8192 in
set_option maxHeartbeats 8000000 in
/-- On every device, from any memory with zero counters: every weakly fair execution of @main terminates with the
    result at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = val_main_v48 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v48).trans (after_ops _),
      (h c main_arg0).trans (by after_results_simp <;> rfl),
      (h c main_arg1).trans (by after_results_simp <;> rfl),
      (h c main_arg2).trans (by after_results_simp <;> rfl)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.RefStages

end
-- ==== Proof.lean ====
/-
  The certificate's claim: the kernel (one pallas_call over an 8 × 32 grid, gathering its negatives by a one-hot
  matrix product) and the jnp reference compute the same contrastive cosine logits over the extended reals, for
  finite z and c and index words in [0, 1024).

  Both results are the specification Spec.G of the three arguments. Kernel side: the generated frame run names the
  result array; each grid point's written block is the specification on its 32 rows (KPieces: the two stores as one
  function of the block index; KGather, KPayload: the stored values at an index; KBlocks: the staged blocks as
  entries of the arguments), and the 256 blocks tile the result (KValue). Reference side: the run read stretch by
  stretch (RefStages) ends at the last stage, which is the specification index by index (RefTargets: the gather and
  the concatenated targets; RefValue: sums, norms, quotients, the mask). The precondition gives the real entries and
  the index range both sides use (PreDecode). The kernel's finite fill constant is named −∞, which is what the
  reference fills with; that naming is the one entry of the idealization's ledger.
-/
import proofs.«425351_j8435315769539_1_alg».proof.Defs
import proofs.«425351_j8435315769539_1_alg».proof.Proof.Gen.Kernel
import proofs.«425351_j8435315769539_1_alg».proof.Proof.Gen.Kernel.Skeleton
import proofs.«425351_j8435315769539_1_alg».proof.Proof.Gen.Kernel.Launch
import proofs.«425351_j8435315769539_1_alg».proof.Proof.Gen.Kernel.Points
import proofs.«425351_j8435315769539_1_alg».proof.Proof.Gen.Kernel.Frame
import proofs.«425351_j8435315769539_1_alg».proof.Proof.Gen.KernelIdeal
import proofs.«425351_j8435315769539_1_alg».proof.Proof.Gen.KernelIdeal.Skeleton
import proofs.«425351_j8435315769539_1_alg».proof.Proof.Gen.KernelIdeal.Launch
import proofs.«425351_j8435315769539_1_alg».proof.Proof.Gen.KernelIdeal.Points
import proofs.«425351_j8435315769539_1_alg».proof.Proof.Gen.KernelIdeal.Frame
import proofs.«425351_j8435315769539_1_alg».proof.Proof.Gen.ReferenceIdeal
import proofs.«425351_j8435315769539_1_alg».proof.Proof.Gen.Pre_finite_inputs
import proofs.«425351_j8435315769539_1_alg».proof.Proof.Gen.KernelIdeal.Value
import proofs.«425351_j8435315769539_1_alg».proof.Proof.KValue
import proofs.«425351_j8435315769539_1_alg».proof.Proof.PreDecode
import proofs.«425351_j8435315769539_1_alg».proof.Proof.RefValue
import proofs.«425351_j8435315769539_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.RefStages.run (F := Ideal) m ρ)

/-- The ledger's one entry: the table gives "neg_big" the value −∞, and the printed constant is that value. -/
theorem preserves : Cert.preserves_Kernel_KernelIdeal :=
  IdealRules.named_const.statement Cert.KernelIdeal.κ "neg_big" .f32 0xF149F2CA#32 ⊥ rfl

/-- Both runs end at the specification of the (agreeing) arguments. -/
theorem algebraic : Cert.algebraic_KernelIdeal_ReferenceIdeal := by
  intro m ρ m' ρ' hpre hagree
  have hgood : ∀ c, Cert.KValue.Good m c := fun c => by
    obtain ⟨hz, hc, hi⟩ := Cert.PreDecode.decode _ _ _ (hpre c)
    exact ⟨hz, hc, hi⟩
  refine ⟨fun c => Cert.Spec.G (Cert.KBlocks.zarr m c) (Cert.KBlocks.carr m c) (Cert.KBlocks.iarr m c), Cert.KValue.run m ρ hgood, ?_⟩
  refine (θ_run Cert.ReferenceIdeal.defs _ _).mono (fun _ h c => ⟨(h c).1.trans ?_, (h c).2⟩)
    (Cert.RefStages.run (F := Ideal) m' ρ')
  rw [(hagree c).1, (hagree c).2.1, (hagree c).2.2]
  exact Cert.RefValue.ref_eq _ _ _ (hgood c).hi

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
